-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S8x512x16x2 : Shape := ⟨4, ![8, 512, 16, 2]⟩
abbrev S1024x2048 : Shape := ⟨2, ![1024, 2048]⟩
abbrev S1024 : Shape := ⟨1, ![1024]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x512x1024 .f32) (main_arg1 : IVec S8x512x16x2 32) (main_arg2 : FVec F S1024x2048 .f32) (main_arg3 : FVec F S1024 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x512x1024 : Shape := ⟨3, ![8, 512, 1024]⟩
abbrev S8x512x16x2 : Shape := ⟨4, ![8, 512, 16, 2]⟩
abbrev S1024x2048 : Shape := ⟨2, ![1024, 2048]⟩
abbrev S1024 : Shape := ⟨1, ![1024]⟩
abbrev S8x8192x2 : Shape := ⟨3, ![8, 8192, 2]⟩
abbrev S8x8192x1 : Shape := ⟨3, ![8, 8192, 1]⟩
abbrev S8x8192 : Shape := ⟨2, ![8, 8192]⟩
abbrev S_ : Shape := ⟨0, ![]⟩
abbrev S8x1x8192 : Shape := ⟨3, ![8, 1, 8192]⟩
abbrev S1024x1024 : Shape := ⟨2, ![1024, 1024]⟩
abbrev S8x8192x1024 : Shape := ⟨3, ![8, 8192, 1024]⟩
abbrev S1x512x1024 : Shape := ⟨3, ![1, 512, 1024]⟩
abbrev S1x1x1024 : Shape := ⟨3, ![1, 1, 1024]⟩
abbrev S1x1024x1024 : Shape := ⟨3, ![1, 1024, 1024]⟩
abbrev S512x1024 : Shape := ⟨2, ![512, 1024]⟩
abbrev S512x2048 : Shape := ⟨2, ![512, 2048]⟩
abbrev S1024x1 : Shape := ⟨2, ![1024, 1]⟩
abbrev S1x1024 : Shape := ⟨2, ![1, 1024]⟩
abbrev S8x512x16x1024 : Shape := ⟨4, ![8, 512, 16, 1024]⟩

abbrev nBuf : Space → Nat
  | .hbm => 36
  | .vmem => 11
  | .smem => 0
  | _ => 0

abbrev bufTy : (tb : Table) → Fin (tcTables nBuf tb) → BufTy
  | .hbm, ⟨0, _⟩ => ⟨S8x512x1024, .f32⟩
  | .hbm, ⟨1, _⟩ => ⟨S8x512x16x2, .i32⟩
  | .hbm, ⟨2, _⟩ => ⟨S1024x2048, .f32⟩
  | .hbm, ⟨3, _⟩ => ⟨S1024, .f32⟩
  | .hbm, ⟨4, _⟩ => ⟨S8x8192x2, .i32⟩
  | .hbm, ⟨5, _⟩ => ⟨S8x8192x1, .i32⟩
  | .hbm, ⟨6, _⟩ => ⟨S8x8192, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8x8192, .i32⟩
  | .hbm, ⟨11, _⟩ => ⟨S8x8192, .i32⟩
  | .hbm, ⟨12, _⟩ => ⟨S_, .i32⟩
  | .hbm, ⟨13, _⟩ => ⟨S8x8192, .i32⟩
  | .hbm, ⟨14, _⟩ => ⟨S8x8192, .i32⟩
  | .hbm, ⟨15, _⟩ => ⟨S8x8192x1, .i32⟩
  | .hbm, ⟨16, _⟩ => ⟨S8x8192, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x8192, .i32⟩
  | .hbm, ⟨21, _⟩ => ⟨S8x8192, .i32⟩
  | .hbm, ⟨22, _⟩ => ⟨S_, .i32⟩
  | .hbm, ⟨23, _⟩ => ⟨S8x8192, .i32⟩
  | .hbm, ⟨24, _⟩ => ⟨S8x8192, .i32⟩
  | .hbm, ⟨25, _⟩ => ⟨S8x1x8192, .i32⟩
  | .hbm, ⟨26, _⟩ => ⟨S8x1x8192, .i32⟩
  | .hbm, ⟨27, _⟩ => ⟨S8x512x1024, .bf16⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x2048, .f32⟩
  | .hbm, ⟨33, _⟩ => ⟨S1024x2048, .bf16⟩
  | .hbm, ⟨34, _⟩ => ⟨S8x8192x1024, .f32⟩
  | .hbm, ⟨35, _⟩ => ⟨S8x512x16x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1x1024, .i32⟩
  | .local _ .vmem, ⟨3, _⟩ => ⟨S1x1x1024, .i32⟩
  | .local _ .vmem, ⟨4, _⟩ => ⟨S1x1x1024, .i32⟩
  | .local _ .vmem, ⟨5, _⟩ => ⟨S1x1x1024, .i32⟩
  | .local _ .vmem, ⟨6, _⟩ => ⟨S1024x2048, .bf16⟩
  | .local _ .vmem, ⟨7, _⟩ => ⟨S1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .bf16⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x512x16x2_S8x8192x2 : S8x512x16x2.ShapeCasts S8x8192x2
  slices_S8x8192x2_S8x8192x1_0_0_0 : S8x8192x2.Slices ![0, 0, 0] S8x8192x1
  shapeCasts_S8x8192x1_S8x8192 : S8x8192x1.ShapeCasts S8x8192
  bcast_S_S8x8192 : S_.BroadcastsInDim S8x8192 (![] : Fin 0 → Fin S8x8192.rank)
  slices_S8x8192x2_S8x8192x1_0_0_1 : S8x8192x2.Slices ![0, 0, 1] S8x8192x1
  shapeCasts_S8x8192_S8x1x8192 : S8x8192.ShapeCasts S8x1x8192
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  concatenates_S1024x1024_S1024x1024_S1024x2048_d1 : Shape.Concatenates [S1024x1024, S1024x1024] S1024x2048 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S512x2048_o0_0_S512x1024 : S512x2048.Slices ![0, 0] S512x1024
  inb_S1024x1024_S512x1024_0_0 : ∀ a, (![0, 0] : Fin 2 → Nat) a + S512x1024.size a ≤ S1024x1024.size a
  h_S512x1024 : 0 < S512x1024.numel
  shapeCasts_S512x1024_S512x1024 : S512x1024.ShapeCasts S512x1024
  packedbf16_S1024x1024_S512x1024_0_0 : (Rect.unit (s := S1024x1024) ![0, 0] S512x1024.size inb_S1024x1024_S512x1024_0_0).PackedRows (EltTy.packing .bf16)
  slices_S512x2048_o0_1024_S512x1024 : S512x2048.Slices ![0, 1024] S512x1024
  inb_S1024x1024_S512x1024_512_0 : ∀ a, (![512, 0] : Fin 2 → Nat) a + S512x1024.size a ≤ S1024x1024.size a
  packedbf16_S1024x1024_S512x1024_512_0 : (Rect.unit (s := S1024x1024) ![512, 0] S512x1024.size inb_S1024x1024_S512x1024_512_0).PackedRows (EltTy.packing .bf16)
  iota_S1024x1024_d1_w32 : S1024x1024.Iotas .tc 32 [1]
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1024x1 : S1024.ShapeCasts S1024x1
  broadcasts_S1024x1_S1024x1024 : S1024x1.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S8x8192x1024_S8x512x16x1024 : S8x8192x1024.ShapeCasts S8x512x16x1024
  dot_S512x1024_S1024x2048_S512x2048_1_0_0_1_n_n_wf : DotDims.WF S512x1024 S1024x2048 S512x2048 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x512x1024.size a
  hwx0_0 : ∀ i : grid0.Coords, EltTy.bits .bf16 = 32 ∨ (Rect.block (s := S8x512x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S8x1x8192.size a
  hwx0_1 : ∀ i : grid0.Coords, EltTy.bits .i32 = 32 ∨ (Rect.block (s := S8x1x8192) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x8192.size a
  hwx0_2 : ∀ i : grid0.Coords, EltTy.bits .i32 = 32 ∨ (Rect.block (s := S8x1x8192) S1x1x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x8192x1024.size a
  hwx0_5 : ∀ i : grid0.Coords, EltTy.bits .f32 = 32 ∨ (Rect.block (s := S8x8192x1024) S1x1024x1024.size (cc0_transform_5 i) (hinb0_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v9) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x1024 : Shape := ⟨3, ![8, 512, 1024]⟩
abbrev S8x512x16x2 : Shape := ⟨4, ![8, 512, 16, 2]⟩
abbrev S1024x2048 : Shape := ⟨2, ![1024, 2048]⟩
abbrev S1024 : Shape := ⟨1, ![1024]⟩
abbrev S8x8192x2 : Shape := ⟨3, ![8, 8192, 2]⟩
abbrev S8x8192x1 : Shape := ⟨3, ![8, 8192, 1]⟩
abbrev S8x8192 : Shape := ⟨2, ![8, 8192]⟩
abbrev S_ : Shape := ⟨0, ![]⟩
abbrev S8 : Shape := ⟨1, ![8]⟩
abbrev S8x1 : Shape := ⟨2, ![8, 1]⟩
abbrev S8x8192x1024 : Shape := ⟨3, ![8, 8192, 1024]⟩
abbrev S8x8192x2048 : Shape := ⟨3, ![8, 8192, 2048]⟩
abbrev S1x1x1024 : Shape := ⟨3, ![1, 1, 1024]⟩
abbrev S8x512x16x1024 : Shape := ⟨4, ![8, 512, 16, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x512x16x2, .i32⟩
  | .hbm, ⟨2, _⟩ => ⟨S1024x2048, .f32⟩
  | .hbm, ⟨3, _⟩ => ⟨S1024, .f32⟩
  | .hbm, ⟨4, _⟩ => ⟨S8x8192x2, .i32⟩
  | .hbm, ⟨5, _⟩ => ⟨S8x8192x1, .i32⟩
  | .hbm, ⟨6, _⟩ => ⟨S8x8192, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8x8192, .i32⟩
  | .hbm, ⟨11, _⟩ => ⟨S8x8192, .i32⟩
  | .hbm, ⟨12, _⟩ => ⟨S_, .i32⟩
  | .hbm, ⟨13, _⟩ => ⟨S8x8192, .i32⟩
  | .hbm, ⟨14, _⟩ => ⟨S8x8192, .i32⟩
  | .hbm, ⟨15, _⟩ => ⟨S8x8192x1, .i32⟩
  | .hbm, ⟨16, _⟩ => ⟨S8x8192, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x8192, .i32⟩
  | .hbm, ⟨21, _⟩ => ⟨S8x8192, .i32⟩
  | .hbm, ⟨22, _⟩ => ⟨S_, .i32⟩
  | .hbm, ⟨23, _⟩ => ⟨S8x8192, .i32⟩
  | .hbm, ⟨24, _⟩ => ⟨S8x8192, .i32⟩
  | .hbm, ⟨25, _⟩ => ⟨S8, .i32⟩
  | .hbm, ⟨26, _⟩ => ⟨S8x1, .i32⟩
  | .hbm, ⟨27, _⟩ => ⟨S_, .i32⟩
  | .hbm, ⟨28, _⟩ => ⟨S8x1, .i32⟩
  | .hbm, ⟨29, _⟩ => ⟨S8x1, .i1⟩
  | .hbm, ⟨30, _⟩ => ⟨S_, .i32⟩
  | .hbm, ⟨31, _⟩ => ⟨S8x1, .i32⟩
  | .hbm, ⟨32, _⟩ => ⟨S8x1, .i32⟩
  | .hbm, ⟨33, _⟩ => ⟨S8x1, .i32⟩
  | .hbm, ⟨34, _⟩ => ⟨S_, .i32⟩
  | .hbm, ⟨35, _⟩ => ⟨S8x8192, .i32⟩
  | .hbm, ⟨36, _⟩ => ⟨S8x8192, .i1⟩
  | .hbm, ⟨37, _⟩ => ⟨S_, .i32⟩
  | .hbm, ⟨38, _⟩ => ⟨S8x8192, .i32⟩
  | .hbm, ⟨39, _⟩ => ⟨S8x8192, .i32⟩
  | .hbm, ⟨40, _⟩ => ⟨S8x8192, .i32⟩
  | .hbm, ⟨41, _⟩ => ⟨S8x8192, .i32⟩
  | .hbm, ⟨42, _⟩ => ⟨S8x8192x1, .i32⟩
  | .hbm, ⟨43, _⟩ => ⟨S8x8192x1, .i32⟩
  | .hbm, ⟨44, _⟩ => ⟨S8x8192x2, .i32⟩
  | .hbm, ⟨45, _⟩ => ⟨S8x8192x1024, .f32⟩
  | .hbm, ⟨46, _⟩ => ⟨S_, .i32⟩
  | .hbm, ⟨47, _⟩ => ⟨S8x1, .i32⟩
  | .hbm, ⟨48, _⟩ => ⟨S8x1, .i1⟩
  | .hbm, ⟨49, _⟩ => ⟨S_, .i32⟩
  | .hbm, ⟨50, _⟩ => ⟨S8x1, .i32⟩
  | .hbm, ⟨51, _⟩ => ⟨S8x1, .i32⟩
  | .hbm, ⟨52, _⟩ => ⟨S8x1, .i32⟩
  | .hbm, ⟨53, _⟩ => ⟨S_, .i32⟩
  | .hbm, ⟨54, _⟩ => ⟨S8x8192, .i32⟩
  | .hbm, ⟨55, _⟩ => ⟨S8x8192, .i1⟩
  | .hbm, ⟨56, _⟩ => ⟨S_, .i32⟩
  | .hbm, ⟨57, _⟩ => ⟨S8x8192, .i32⟩
  | .hbm, ⟨58, _⟩ => ⟨S8x8192, .i32⟩
  | .hbm, ⟨59, _⟩ => ⟨S8x8192, .i32⟩
  | .hbm, ⟨60, _⟩ => ⟨S8x8192, .i32⟩
  | .hbm, ⟨61, _⟩ => ⟨S8x8192x1, .i32⟩
  | .hbm, ⟨62, _⟩ => ⟨S8x8192x1, .i32⟩
  | .hbm, ⟨63, _⟩ => ⟨S8x8192x2, .i32⟩
  | .hbm, ⟨64, _⟩ => ⟨S8x8192x1024, .f32⟩
  | .hbm, ⟨65, _⟩ => ⟨S8x8192x2048, .f32⟩
  | .hbm, ⟨66, _⟩ => ⟨S8x8192x1024, .f32⟩
  | .hbm, ⟨67, _⟩ => ⟨S1x1x1024, .f32⟩
  | .hbm, ⟨68, _⟩ => ⟨S8x8192x1024, .f32⟩
  | .hbm, ⟨69, _⟩ => ⟨S8x8192x1024, .f32⟩
  | .hbm, ⟨70, _⟩ => ⟨S_, .f32⟩
  | .hbm, ⟨71, _⟩ => ⟨S8x8192x1024, .f32⟩
  | .hbm, ⟨72, _⟩ => ⟨S8x8192x1024, .f32⟩
  | .hbm, ⟨73, _⟩ => ⟨S8x512x16x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_3 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_c_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_c_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_9 : Ref sig .tc := ⟨.hbm, 53, rfl⟩
abbrev main_v29 : Ref sig .tc := ⟨.hbm, 54, rfl⟩
abbrev main_v30 : Ref sig .tc := ⟨.hbm, 55, rfl⟩
abbrev main_c_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call2_cst : Ref sig .tc := ⟨.hbm, 70, rfl⟩
abbrev main_call2_v0 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]

class Facts₀ : Prop where
  shapeCasts_S8x512x16x2_S8x8192x2 : S8x512x16x2.ShapeCasts S8x8192x2
  slices_S8x8192x2_S8x8192x1_0_0_0 : S8x8192x2.Slices ![0, 0, 0] S8x8192x1
  shapeCasts_S8x8192x1_S8x8192 : S8x8192x1.ShapeCasts S8x8192
  bcast_S_S8x8192 : S_.BroadcastsInDim S8x8192 (![] : Fin 0 → Fin S8x8192.rank)
  slices_S8x8192x2_S8x8192x1_0_0_1 : S8x8192x2.Slices ![0, 0, 1] S8x8192x1
  bcast_S8_S8x1_0 : S8.BroadcastsInDim S8x1 (![0] : Fin 1 → Fin S8x1.rank)
  bcast_S_S8x1 : S_.BroadcastsInDim S8x1 (![] : Fin 0 → Fin S8x1.rank)
  bcast_S8x1_S8x8192_0_1 : S8x1.BroadcastsInDim S8x8192 (![0, 1] : Fin 2 → Fin S8x8192.rank)
  bcast_S8x8192_S8x8192x1_0_1 : S8x8192.BroadcastsInDim S8x8192x1 (![0, 1] : Fin 2 → Fin S8x8192x1.rank)
  concatenates_S8x8192x1_S8x8192x1_S8x8192x2_d2 : Shape.Concatenates [S8x8192x1, S8x8192x1] S8x8192x2 2
  concatenates_S8x8192x1024_S8x8192x1024_S8x8192x2048_d2 : Shape.Concatenates [S8x8192x1024, S8x8192x1024] S8x8192x2048 2
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  bcast_S_S8x8192x1024 : S_.BroadcastsInDim S8x8192x1024 (![] : Fin 0 → Fin S8x8192x1024.rank)
  shapeCasts_S8x8192x1024_S8x512x16x1024 : S8x8192x1024.ShapeCasts S8x512x16x1024
  gather_S8x512x1024_S8x8192x2_S8x8192x1024_2_01_n_n_01_2_111024_wf : GatherDims.WF S8x512x1024 S8x8192x2 S8x8192x1024 [2] [0, 1] [] [0, 1] [] 2 ![1, 1, 1024]
  dot_S8x8192x2048_S1024x2048_S8x8192x1024_2_1_01_0_n_n_wf : DotDims.WF S8x8192x2048 S1024x2048 S8x8192x1024 [2] [1] [0, 1] [0] [] []

variable [Facts₀]

def gather_S8x512x1024_S8x8192x2_S8x8192x1024_2_01_n_n_01_2_111024 : GatherDims S8x512x1024 S8x8192x2 S8x8192x1024 where
  offsetDims := [2]
  collapsedSliceDims := [0, 1]
  operandBatchingDims := []
  startIndicesBatchingDims := []
  startIndexMap := [0, 1]
  indexVectorDim := 2
  sliceSizes := ![1, 1, 1024]
  wf := gather_S8x512x1024_S8x8192x2_S8x8192x1024_2_01_n_n_01_2_111024_wf
def dot_S8x8192x2048_S1024x2048_S8x8192x1024_2_1_01_0_n_n : DotDims S8x8192x2048 S1024x2048 S8x8192x1024 where
  lhsContracting := [2]
  rhsContracting := [1]
  lhsNonContracting := [0, 1]
  rhsNonContracting := [0]
  lhsBatch := []
  rhsBatch := []
  wf := dot_S8x8192x2048_S1024x2048_S8x8192x1024_2_1_01_0_n_n_wf

class Facts : Prop extends Facts₀ where

variable [Facts]
-- ==== Proof.Spec.lean ====
/-
  What the span-endpoint layer computes, as one function of its four argument arrays.

  For batch b and span n (there are 8192 = 512 * 16 spans per batch, span n being entry (n / 16, n % 16) of the
  index array), the two endpoint words are clipped, as signed numbers, into 0 .. 511 and select two rows of the
  batch's 512 x 1024 hidden-state matrix. The result at feature d is

      max ( (sum over c of h[b, start, c] * W[d, c]) + (sum over c of h[b, end, c] * W[d, 1024 + c]) + bias[d] , 0 )

  i.e. the concatenated pair of rows against row d of the 1024 x 2048 weight, plus the bias, through relu. Both
  programs are shown equal to this function.
-/
import Idealize.ShloMosaic.PureOps.Ideal
import Idealize.ShloMosaic.Lib.ValueIdx

noncomputable section

namespace Cert.SpanSpec

open Idealize.ShloMosaic Idealize.ShloMosaic.ValueIdx

/-- A word clipped, as a signed number, into 0 .. 511: the larger of it and 0, then the smaller of that and 511. -/
def clipW (w : BitVec 32) : BitVec 32 := IntOp.minsi 511#32 (IntOp.maxsi 0#32 w)

theorem maxsi_toInt (x y : BitVec 32) : (IntOp.maxsi x y).toInt = max x.toInt y.toInt := by
  unfold IntOp.maxsi
  by_cases h : y.toInt < x.toInt
  · rw [if_pos (by simpa [BitVec.slt] using h)]; omega
  · rw [if_neg (by simpa [BitVec.slt] using h)]; omega

theorem minsi_toInt (x y : BitVec 32) : (IntOp.minsi x y).toInt = min x.toInt y.toInt := by
  unfold IntOp.minsi
  by_cases h : x.toInt < y.toInt
  · rw [if_pos (by simpa [BitVec.slt] using h)]; omega
  · rw [if_neg (by simpa [BitVec.slt] using h)]; omega

theorem clipW_toInt (w : BitVec 32) : 0 ≤ (clipW w).toInt ∧ (clipW w).toInt ≤ 511 := by
  have h0 : (0#32 : BitVec 32).toInt = 0 := by decide
  have h511 : (511#32 : BitVec 32).toInt = 511 := by decide
  unfold clipW
  rw [minsi_toInt, maxsi_toInt, h0, h511]
  omega

theorem clipW_toNat_lt (w : BitVec 32) : (clipW w).toNat < 512 := by
  have h := clipW_toInt w
  have e := BitVec.toInt_eq_toNat_cond (clipW w)
  have hl := (clipW w).isLt
  split at e <;> omega

/-- Read signed, the clipped word is its own unsigned value. -/
theorem clipW_toInt_toNat (w : BitVec 32) : (clipW w).toInt.toNat = (clipW w).toNat := by
  have h := clipW_toInt w
  have e := BitVec.toInt_eq_toNat_cond (clipW w)
  have hl := (clipW w).isLt
  split at e <;> omega

/-- The row of the hidden-state matrix that endpoint `s` (0 = start, 1 = end) of span `n` of batch `b` selects. -/
def rowOf (idx : IVec ⟨4, ![8, 512, 16, 2]⟩ 32) (b : Fin 8) (n : Fin 8192) (s : Fin 2) : Fin 512 :=
  ⟨(clipW (idx (ix4 b ⟨n.val / 16, by have := n.isLt; omega⟩ ⟨n.val % 16, Nat.mod_lt _ (by decide)⟩ s))).toNat, clipW_toNat_lt _⟩

/-- One endpoint's half of the linear layer: the selected row against the left (`off = 0`) or right (`off = 1024`)
    half of row `d` of the weight. -/
def half (h : FVec Ideal ⟨3, ![8, 512, 1024]⟩ .f32) (W : FVec Ideal ⟨2, ![1024, 2048]⟩ .f32)
    (b : Fin 8) (r : Fin 512) (d : Fin 1024) (off : Nat) (hoff : off + 1024 ≤ 2048) : EReal :=
  ∑ c : Fin 1024, h (ix3 b r c) * W (ix2 d ⟨off + c.val, by have := c.isLt; omega⟩)

/-- THE LAYER, before the final regrouping of the span axis: entry (b, n, d). -/
def G (h : FVec Ideal ⟨3, ![8, 512, 1024]⟩ .f32) (idx : IVec ⟨4, ![8, 512, 16, 2]⟩ 32)
    (W : FVec Ideal ⟨2, ![1024, 2048]⟩ .f32) (bias : FVec Ideal ⟨1, ![1024]⟩ .f32) :
    FVec Ideal ⟨3, ![8, 8192, 1024]⟩ .f32 := fun j =>
  max ((half h W (j 0) (rowOf idx (j 0) (j 1) 0) (j 2) 0 (by decide)
        + half h W (j 0) (rowOf idx (j 0) (j 1) 1) (j 2) 1024 (by decide)) + bias (ix1 (j 2)))
    (Ideal.ofBits .f32 0x00000000#32)

end Cert.SpanSpec

end
-- ==== Proof.KPieces.lean ====
/-
  What the kernel body leaves behind, read as values.

  The body keeps a 1024 x 1024 table across the grid points of one batch. At the first point of a batch it fills the
  table in two halves — rows 0 .. 511 with the left 1024 columns of (hidden block) x (fused weight), rows 512 .. 1023
  with the right 1024 columns — and at every point it writes one output block: a function of the two index blocks,
  the table as it then stands, and the bias. Here the table and the output block are named as functions of what the
  body loads, for either case of the body's one branch.
-/
import proofs.«415181_j5995774345595_3_alg».proof.Proof.Gen.KernelIdeal.Frame
import Idealize.ShloMosaic.Lib.Pipeline.Value
import Idealize.ShloMosaic.Lib.ValueIdx
set_option maxRecDepth 16384

noncomputable section

namespace Cert.SpanKernel

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The two stores that fill the table, last first: the lower half, then the upper half. -/
abbrev tablePieces (p3 p2 : Vec F S512x1024 .bf16) : List (View.Piece (Elt F) S1024x1024 .bf16) :=
  [⟨Rect.unit (s := S1024x1024) ![512, 0] S512x1024.size inb_S1024x1024_S512x1024_512_0, p3⟩,
   ⟨Rect.unit (s := S1024x1024) ![0, 0] S512x1024.size inb_S1024x1024_S512x1024_0_0, p2⟩]

/-- The two halves tile the table. -/
theorem tablePieces_cover (p3 p2 : Vec F S512x1024 .bf16) (y : S1024x1024.Idx) :
    ∃ pc ∈ tablePieces p3 p2, y ∈ pc.1.set :=
  View.cover_of_tiledL (tablePieces p3 p2) S512x1024.size (by sl_kernel_rfl) y

/-- THE TABLE a batch's first point leaves: rows 0 .. 511 the first product's left half, rows 512 .. 1023 its right half. -/
def tableOf (x0 : Vec F S1x512x1024 .bf16) (x3 : Vec F S1024x2048 .bf16) : Vec F S1024x1024 .bf16 :=
  View.canon (tablePieces (k0_pay3 x0 x3) (k0_pay2 x0 x3))

/-- At a batch's first point the table is refilled from the point's hidden block and the fused weight. -/
theorem sout_A (c : Dev nD) (i : grid0.Coords) (arg2 : Memref sig .tc .vmem S1x512x1024 .bf16) (harg2 : arg2.IsWhole) (arg3 : Memref sig .tc .vmem S1x1x1024 .i32) (harg3 : arg3.IsWhole) (arg4 : Memref sig .tc .vmem S1x1x1024 .i32) (harg4 : arg4.IsWhole) (arg5 : Memref sig .tc .vmem S1024x2048 .bf16) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .bf16) (harg8 : arg8.IsWhole) (hc0 : cond0_0 i) (x0 : Vec F S1x512x1024 .bf16) (x1 : Vec F S1x1x1024 .i32) (x2 : Vec F S1x1x1024 .i32) (x3 : Vec F S1024x2048 .bf16) (x4 : Vec F S1024 .f32) :
    sout0_A_0 c i arg2 harg2 arg3 harg3 arg4 harg4 arg5 harg5 arg6 harg6 arg7 harg7 arg8 harg8 hc0 x0 x1 x2 x3 x4 = tableOf x0 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread, harg5.read_unread, View.ld_unit_zero (S := S1x512x1024) hz3,
    View.ld_unit_zero (S := S1024x2048) hz2]
  rfl

/-- At any other point the output block is computed from the table the point before left. -/
theorem out_B (c : Dev nD) (i : grid0.Coords) (arg2 : Memref sig .tc .vmem S1x512x1024 .bf16) (harg2 : arg2.IsWhole) (arg3 : Memref sig .tc .vmem S1x1x1024 .i32) (harg3 : arg3.IsWhole) (arg4 : Memref sig .tc .vmem S1x1x1024 .i32) (harg4 : arg4.IsWhole) (arg5 : Memref sig .tc .vmem S1024x2048 .bf16) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .bf16) (harg8 : arg8.IsWhole) (hc0 : ¬cond0_0 i) (x0 : Vec F S1x512x1024 .bf16) (x1 : Vec F S1x1x1024 .i32) (x2 : Vec F S1x1x1024 .i32) (x3 : Vec F S1024x2048 .bf16) (x4 : Vec F S1024 .f32) (xs0 : Vec F S1024x1024 .bf16) :
    out0_B_5 c i arg2 harg2 arg3 harg3 arg4 harg4 arg5 harg5 arg6 harg6 arg7 harg7 arg8 harg8 hc0 x0 x1 x2 x3 x4 xs0 = k0_pay4 x1 x2 xs0 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero (S := S1x1024x1024) hz3]
  simp only [View.readAt_eq_ld, harg3.read_unread, harg4.read_unread, harg6.read_unread, harg8.read_unread,
    View.ld_unit_zero (S := S1x1x1024) hz3, View.ld_unit_zero (S := S1024x1024) hz2, View.ld_unit_zero (S := S1024) hz1]

/-- At a batch's first point the output block is computed from the table just refilled. -/
theorem out_A (c : Dev nD) (i : grid0.Coords) (arg2 : Memref sig .tc .vmem S1x512x1024 .bf16) (harg2 : arg2.IsWhole) (arg3 : Memref sig .tc .vmem S1x1x1024 .i32) (harg3 : arg3.IsWhole) (arg4 : Memref sig .tc .vmem S1x1x1024 .i32) (harg4 : arg4.IsWhole) (arg5 : Memref sig .tc .vmem S1024x2048 .bf16) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .bf16) (harg8 : arg8.IsWhole) (hc0 : cond0_0 i) (x0 : Vec F S1x512x1024 .bf16) (x1 : Vec F S1x1x1024 .i32) (x2 : Vec F S1x1x1024 .i32) (x3 : Vec F S1024x2048 .bf16) (x4 : Vec F S1024 .f32) :
    out0_A_5 c i arg2 harg2 arg3 harg3 arg4 harg4 arg5 harg5 arg6 harg6 arg7 harg7 arg8 harg8 hc0 x0 x1 x2 x3 x4 = k0_pay4 x1 x2 (tableOf x0 x3) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero (S := S1x1024x1024) hz3, View.readCov_eq_canon_ld _ _ _ (tablePieces_cover _ _)]
  simp only [View.readAt_eq_ld, harg2.read_unread, harg3.read_unread, harg4.read_unread, harg5.read_unread, harg6.read_unread,
    View.ld_unit_zero (S := S1x512x1024) hz3, View.ld_unit_zero (S := S1024x2048) hz2,
    View.ld_unit_zero (S := S1x1x1024) hz3, View.ld_unit_zero (S := S1024x1024) hz2, View.ld_unit_zero (S := S1024) hz1]
  rfl

end Cert.SpanKernel

end
-- ==== Proof.KBlocks.lean ====
/-
  The table across the grid, and what each point writes.

  The grid has 64 points, point t working on batch t / 8 and on spans (t % 8) * 1024 .. (t % 8) * 1024 + 1023 of it.
  The hidden block a point sees is the batch's whole 512 x 1024 matrix, the same for the batch's eight points; the
  two index blocks are the point's 1024 start and end words; the fused weight and the bias are whole arrays. The
  table is refilled exactly at the points with t % 8 = 0, so after ANY point t it is the table of batch t / 8 — by
  induction on the point — and every point's output block is the body's arithmetic on that table.
-/
import proofs.«415181_j5995774345595_3_alg».proof.Proof.KPieces
import Idealize.ShloMosaic.Lib.Pipeline.Value
import Idealize.ShloMosaic.Lib.ValueIdx
set_option maxRecDepth 16384

noncomputable section

namespace Cert.SpanKernel

open Idealize.ShloMosaic Idealize.ShloMosaic.TcCoe Idealize.ShloMosaic.Tactic Idealize.ShloMosaic.ValueIdx
open Idealize.SL.Sem
open Cert.KernelIdeal Cert.KernelIdeal.Gen

variable (m : (ℓ : Loc nD τ sig) → Buf (Elt Ideal) ℓ) (c : Dev nD)

/-- The printed index maps, decided once over the 64 grid points: which block of its array each window shows at point t. -/
theorem idx_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = 0 ∧ win0_1.index t (2 : Fin 3) = t.val % 8)
    ∧ (win0_2.index t (0 : Fin 3) = t.val / 8 ∧ win0_2.index t (1 : Fin 3) = 0 ∧ win0_2.index t (2 : Fin 3) = t.val % 8)
    ∧ (win0_3.index t (0 : Fin 2) = 0 ∧ win0_3.index t (1 : Fin 2) = 0)
    ∧ win0_4.index t (0 : Fin 1) = 0
    ∧ (win0_5.index t (0 : Fin 3) = t.val / 8 ∧ win0_5.index t (1 : Fin 3) = t.val % 8 ∧ win0_5.index t (2 : Fin 3) = 0) :=
  (by decide +kernel : ∀ t : Fin grid0.N, _)

theorem t_lt (t : Fin cfg0.N) : t.val < 64 := lt_of_lt_of_eq t.isLt (show cfg0.N = 64 from N_0)

/-- The blocks a point's body is called with, at their literal types. -/
abbrev hblk (t : Fin cfg0.N) : Vec Ideal S1x512x1024 .bf16 := iblk m c 0 t
abbrev sblk (t : Fin cfg0.N) : Vec Ideal S1x1x1024 .i32 := iblk m c 1 t
abbrev eblk (t : Fin cfg0.N) : Vec Ideal S1x1x1024 .i32 := iblk m c 2 t
abbrev wblk (t : Fin cfg0.N) : Vec Ideal S1024x2048 .bf16 := iblk m c 3 t
abbrev bblk (t : Fin cfg0.N) : Vec Ideal S1024 .f32 := iblk m c 4 t

/-- The arrays the region finds, at their literal types. -/
abbrev harr : Vec Ideal S8x512x1024 .bf16 := V m c main_v9
abbrev sarr : Vec Ideal S8x1x8192 .i32 := V m c main_v7
abbrev earr : Vec Ideal S8x1x8192 .i32 := V m c main_v8
abbrev warr : Vec Ideal S1024x2048 .bf16 := V m c main_v15
abbrev barr : Vec Ideal S1024 .f32 := V m c main_arg3

/-- The hidden block at point t is batch t / 8's matrix. -/
theorem hblk_apply (t : Fin cfg0.N) (u : Fin 1) (r : Fin 512) (k : Fin 1024) :
    hblk m c t (ix3 u r k) = harr m c (ix3 ⟨t.val / 8, by have := t_lt t; omega⟩ r k) := by
  obtain ⟨⟨e0, e1, e2⟩, -⟩ := idx_facts t
  have hu : u.val = 0 := by omega
  show iblk m c 0 t (ix3 u r k) = _
  unfold iblk
  rw [View.read_apply]
  show V m c main_v9 _ = V m c main_v9 _
  congr 1
  funext a
  apply Fin.ext
  match a with
  | ⟨0, _⟩ => show win0_0.index t (0 : Fin 3) * 1 + 1 * u.val = t.val / 8; rw [e0, hu]; omega
  | ⟨1, _⟩ => show win0_0.index t (1 : Fin 3) * 512 + 1 * r.val = r.val; rw [e1]; omega
  | ⟨2, _⟩ => show win0_0.index t (2 : Fin 3) * 1024 + 1 * k.val = k.val; rw [e2]; omega

/-- The start-word block at point t: spans (t % 8) * 1024 + q of batch t / 8. -/
theorem sblk_apply (t : Fin cfg0.N) (u u' : Fin 1) (q : Fin 1024) :
    sblk m c t (ix3 u u' q)
      = sarr m c (ix3 ⟨t.val / 8, by have := t_lt t; omega⟩ (0 : Fin 1) ⟨t.val % 8 * 1024 + q.val, by have := q.isLt; omega⟩) := by
  obtain ⟨-, ⟨e0, e1, e2⟩, -⟩ := idx_facts t
  have hu : u.val = 0 := by omega
  have hu' : u'.val = 0 := by omega
  show iblk m c 1 t (ix3 u u' q) = _
  unfold iblk
  rw [View.read_apply]
  show V m c main_v7 _ = V m c main_v7 _
  congr 1
  funext a
  apply Fin.ext
  match a with
  | ⟨0, _⟩ => show win0_1.index t (0 : Fin 3) * 1 + 1 * u.val = t.val / 8; rw [e0, hu]; omega
  | ⟨1, _⟩ => show win0_1.index t (1 : Fin 3) * 1 + 1 * u'.val = 0; rw [e1, hu']
  | ⟨2, _⟩ => show win0_1.index t (2 : Fin 3) * 1024 + 1 * q.val = t.val % 8 * 1024 + q.val; rw [e2]; omega

/-- The end-word block at point t, likewise. -/
theorem eblk_apply (t : Fin cfg0.N) (u u' : Fin 1) (q : Fin 1024) :
    eblk m c t (ix3 u u' q)
      = earr m c (ix3 ⟨t.val / 8, by have := t_lt t; omega⟩ (0 : Fin 1) ⟨t.val % 8 * 1024 + q.val, by have := q.isLt; omega⟩) := by
  obtain ⟨-, -, ⟨e0, e1, e2⟩, -⟩ := idx_facts t
  have hu : u.val = 0 := by omega
  have hu' : u'.val = 0 := by omega
  show iblk m c 2 t (ix3 u u' q) = _
  unfold iblk
  rw [View.read_apply]
  show V m c main_v8 _ = V m c main_v8 _
  congr 1
  funext a
  apply Fin.ext
  match a with
  | ⟨0, _⟩ => show win0_2.index t (0 : Fin 3) * 1 + 1 * u.val = t.val / 8; rw [e0, hu]; omega
  | ⟨1, _⟩ => show win0_2.index t (1 : Fin 3) * 1 + 1 * u'.val = 0; rw [e1, hu']
  | ⟨2, _⟩ => show win0_2.index t (2 : Fin 3) * 1024 + 1 * q.val = t.val % 8 * 1024 + q.val; rw [e2]; omega

/-- Every point sees the whole fused weight, -/
theorem wblk_eq (t : Fin cfg0.N) : wblk m c t = warr m c := by
  obtain ⟨-, -, -, ⟨e0, e1⟩, -⟩ := idx_facts t
  funext y
  show iblk m c 3 t y = _
  unfold iblk
  rw [View.read_apply]
  show V m c main_v15 _ = V m c main_v15 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 2048 + 1 * (y 1).val = (y 1).val; rw [e1]; omega

/-- and the whole bias. -/
theorem bblk_eq (t : Fin cfg0.N) : bblk m c t = barr m c := by
  obtain ⟨-, -, -, -, e0, -⟩ := idx_facts t
  funext y
  show iblk m c 4 t y = _
  unfold iblk
  rw [View.read_apply]
  show V m c main_arg3 _ = V m c main_arg3 _
  congr 1
  funext a
  apply Fin.ext
  match a with
  | ⟨0, _⟩ => show win0_4.index t (0 : Fin 1) * 1024 + 1 * (y 0).val = (y 0).val; rw [e0]; omega

/-- Batch b's hidden-state matrix, as the one-batch block the body loads. -/
def hmat (b : Fin 8) : Vec Ideal S1x512x1024 .bf16 := fun y => harr m c (ix3 b (y 1) (y 2))

theorem hblk_eq (t : Fin cfg0.N) : hblk m c t = hmat m c ⟨t.val / 8, by have := t_lt t; omega⟩ := by
  funext y
  obtain ⟨u, r, k, rfl⟩ : ∃ (u : Fin 1) (r : Fin 512) (k : Fin 1024), y = ix3 u r k := ⟨y 0, y 1, y 2, eq_ix3 y⟩
  exact hblk_apply m c t u r k

/-- THE TABLE of batch b: the table a first point fills from the batch's matrix and the fused weight. -/
def tableB (b : Fin 8) : Vec Ideal S1024x1024 .bf16 := tableOf (hmat m c b) (warr m c)

/-- After any point t the kept table is batch t / 8's: refilled when t % 8 = 0, otherwise what point t - 1 (of the same
    batch) left. -/
theorem table_at (n : ℕ) : ∀ t : Fin cfg0.N, t.val = n →
    (outsAt0 m c t.val t.isLt).2 = tableB m c ⟨t.val / 8, by have := t_lt t; omega⟩ := by
  induction n using Nat.strong_induction_on with
  | _ n ih =>
    intro t hn
    by_cases h0 : t.val % 8 = 0
    · rw [outsAt0_A m c t h0]
      dsimp only
      refine (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (hblk m c t) (sblk m c t) (eblk m c t) (wblk m c t) (bblk m c t)).trans ?_
      rw [hblk_eq, wblk_eq]
      rfl
    · have hlt := t_lt t
      rw [outsAt0_B m c t h0]
      dsimp only
      unfold sout0_B_0
      have hN : cfg0.N = 64 := N_0
      have key := ih (t.val - 1) (by omega) ⟨t.val - 1, by omega⟩ rfl
      refine key.trans ?_
      have e : (⟨(t.val - 1) / 8, by omega⟩ : Fin 8) = ⟨t.val / 8, by omega⟩ := Fin.ext (by show (t.val - 1) / 8 = t.val / 8; omega)
      exact congrArg (tableB m c) e

/-- What point t leaves in the output's staging buffer: the body's arithmetic on the point's two index blocks, the
    table of batch t / 8 and the bias. -/
theorem out_at (t : Fin cfg0.N) :
    (outsAt0 m c t.val t.isLt).1
      = k0_pay4 (F := Ideal) (sblk m c t) (eblk m c t) (tableB m c ⟨t.val / 8, by have := t_lt t; omega⟩) (barr m c) := by
  have hlt := t_lt t
  have hN : cfg0.N = 64 := N_0
  by_cases h0 : t.val % 8 = 0
  · rw [outsAt0_A m c t h0]
    dsimp only
    refine (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (hblk m c t) (sblk m c t) (eblk m c t) (wblk m c t) (bblk m c t)).trans ?_
    rw [hblk_eq, wblk_eq, bblk_eq]
    rfl
  · rw [outsAt0_B m c t h0]
    dsimp only
    refine (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (hblk m c t) (sblk m c t) (eblk m c t) (wblk m c t) (bblk m c t)
      (outsAt0 m c (t.val - 1) (Nat.lt_of_le_of_lt (Nat.sub_le _ _) t.isLt)).2).trans ?_
    have key := table_at m c (t.val - 1) ⟨t.val - 1, by omega⟩ rfl
    have e : (⟨(t.val - 1) / 8, by omega⟩ : Fin 8) = ⟨t.val / 8, by omega⟩ := Fin.ext (by show (t.val - 1) / 8 = t.val / 8; omega)
    rw [bblk_eq]
    exact congrArg (fun T => k0_pay4 (F := Ideal) (sblk m c t) (eblk m c t) T (barr m c)) (key.trans (congrArg (tableB m c) e))

end Cert.SpanKernel

end
-- ==== Proof.KTable.lean ====
/-
  The table's rows.

  The table is filled by two stores, rows 0 .. 511 and rows 512 .. 1023. Row s of the upper half is row s of the first
  store's payload; row 512 + e of the lower half is row e of the second's.
-/
import proofs.«415181_j5995774345595_3_alg».proof.Proof.KPieces
import Idealize.ShloMosaic.Lib.Pipeline.Value
import Idealize.ShloMosaic.Lib.ValueIdx
set_option maxRecDepth 16384

noncomputable section

namespace Cert.SpanKernel

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F]

/-- The two rectangles of the table's stores: rows 0 .. 511 and rows 512 .. 1023, all 1024 columns. -/
abbrev rectUpper : Rect S1024x1024 := Rect.unit (s := S1024x1024) ![0, 0] S512x1024.size inb_S1024x1024_S512x1024_0_0
abbrev rectLower : Rect S1024x1024 := Rect.unit (s := S1024x1024) ![512, 0] S512x1024.size inb_S1024x1024_S512x1024_512_0

/-- A row below 512 is not in the lower rectangle. -/
theorem upper_not_mem_lower (s : Fin 512) (d : Fin 1024) :
    (ix2 (⟨s.val, by have := s.isLt; omega⟩ : Fin 1024) d : S1024x1024.Idx) ∉ rectLower.set := by
  rw [Rect.mem_set_unit]
  intro h
  have h0 := (h 0).1
  have hs := s.isLt
  have : 512 ≤ s.val := h0
  omega

/-- Entry (s, d) of the upper rectangle sits at (s, d) of the table, -/
theorem emb_upper (s : Fin 512) (d : Fin 1024) :
    rectUpper.emb (ix2 s d) = ix2 ⟨s.val, by have := s.isLt; omega⟩ d :=
  funext fun a => Fin.ext (by
    match a with
    | ⟨0, _⟩ => show 0 + 1 * s.val = s.val; omega
    | ⟨1, _⟩ => show 0 + 1 * d.val = d.val; omega)

/-- and entry (e, d) of the lower rectangle at (512 + e, d). -/
theorem emb_lower (e : Fin 512) (d : Fin 1024) :
    rectLower.emb (ix2 e d) = ix2 ⟨512 + e.val, by have := e.isLt; omega⟩ d :=
  funext fun a => Fin.ext (by
    match a with
    | ⟨0, _⟩ => show 512 + 1 * e.val = 512 + e.val; omega
    | ⟨1, _⟩ => show 0 + 1 * d.val = d.val; omega)

/-- Of two stores, lower rectangle last: a row below 512 reads the upper store's payload, -/
theorem canon_upper (p3 p2 : Vec F S512x1024 .bf16) (s : Fin 512) (d : Fin 1024) :
    View.canon (tablePieces p3 p2) (ix2 ⟨s.val, by have := s.isLt; omega⟩ d) = p2 (ix2 s d) :=
  (View.canon_cons_of_not_mem (⟨rectLower, p3⟩ : View.Piece (Elt F) S1024x1024 .bf16) [⟨rectUpper, p2⟩]
      (upper_not_mem_lower s d)).trans
    ((congrArg (View.canon [(⟨rectUpper, p2⟩ : View.Piece (Elt F) S1024x1024 .bf16)]) (emb_upper s d).symm).trans
      (View.canon_cons_emb rectUpper p2 [] (ix2 s d)))

/-- and row 512 + e the lower store's. -/
theorem canon_lower (p3 p2 : Vec F S512x1024 .bf16) (e : Fin 512) (d : Fin 1024) :
    View.canon (tablePieces p3 p2) (ix2 ⟨512 + e.val, by have := e.isLt; omega⟩ d) = p3 (ix2 e d) :=
  (congrArg (View.canon (tablePieces p3 p2)) (emb_lower e d).symm).trans
    (View.canon_cons_emb rectLower p3 [⟨rectUpper, p2⟩] (ix2 e d))

/-- Rows 0 .. 511 of the table: the first product's left half. -/
theorem tableOf_upper (x0 : Vec F S1x512x1024 .bf16) (x3 : Vec F S1024x2048 .bf16) (s : Fin 512) (d : Fin 1024) :
    tableOf x0 x3 (ix2 ⟨s.val, by have := s.isLt; omega⟩ d) = k0_pay2 x0 x3 (ix2 s d) := by
  unfold tableOf
  exact canon_upper _ _ s d

/-- Rows 512 .. 1023 of the table: the first product's right half. -/
theorem tableOf_lower (x0 : Vec F S1x512x1024 .bf16) (x3 : Vec F S1024x2048 .bf16) (e : Fin 512) (d : Fin 1024) :
    tableOf x0 x3 (ix2 ⟨512 + e.val, by have := e.isLt; omega⟩ d) = k0_pay3 x0 x3 (ix2 e d) := by
  unfold tableOf
  exact canon_lower _ _ e d

end Cert.SpanKernel

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.LibTwoHotRow.lean ====
/-
  A row with two ones against a column of extended reals.

  A kernel that wants the SUM of two rows `a` and `b` of a small table in one product builds the row vector that has a
  one in column `a` and a one in column `b`: it compares the column numbers `0, 1, …, n - 1` with the word `a` and with
  the word `b`, joins the two answer bits with `or`, widens the bit to a word and converts the word to a float. Over
  the extended reals the entries are exactly `1` (columns `a` and `b`) and `0` (elsewhere); `0 * x = 0` and `1 * x = x`
  for EVERY extended real `x`, infinite ones included, so when `a ≠ b` the sum over the columns is `x a + x b`: no
  finiteness is needed. Stated for any number of columns `n ≤ 2 ^ 32` and any two distinct words below `n`.
-/
import Idealize.ShloMosaic.PureOps.Ideal
import Idealize.ShloMosaic.Lib.Affine

noncomputable section

namespace Idealize.ShloMosaic.TwoHotRow

open Idealize.ShloMosaic

/-- An answer bit widened to a word, read signed, is the bit as a number. -/
theorem toInt_widen_bit (p : BitVec 1) : (p.setWidth 32).toInt = (p.toNat : ℤ) := by
  rcases BitVec.eq_zero_or_eq_one p with h | h <;> subst h <;> decide

/-- Comparing column number `j` with the word `w` answers one exactly when `w` is `j`. -/
theorem cmp_col (w : BitVec 32) (j : Nat) (hj : j < 2 ^ 32) :
    IntOp.cmpi .eq (BitVec.ofNat 32 j) w = if w.toNat = j then 1#1 else 0#1 := by
  by_cases h : w.toNat = j
  · have e : BitVec.ofNat 32 j = w := BitVec.eq_of_toNat_eq (by rw [BitVec.toNat_ofNat, h, Nat.mod_eq_of_lt hj])
    rw [if_pos h]; exact IntOp.cmpi_eq.mpr e
  · have hne : ¬ BitVec.ofNat 32 j = w := fun e => h (by rw [← e, BitVec.toNat_ofNat, Nat.mod_eq_of_lt hj])
    rw [if_neg h]
    rcases BitVec.eq_zero_or_eq_one (IntOp.cmpi .eq (BitVec.ofNat 32 j) w) with h0 | h1
    · exact h0
    · exact absurd (IntOp.cmpi_eq.mp h1) hne

/-- One entry of the row: `1` when the column is one of the two words, `0` otherwise. -/
theorem entry (a b : BitVec 32) (j : Nat) (hj : j < 2 ^ 32) :
    (FloatOps.sitofp (F := Ideal) .f32
        ((IntOp.ori (IntOp.cmpi .eq (BitVec.ofNat 32 j) a) (IntOp.cmpi .eq (BitVec.ofNat 32 j) b)).setWidth 32) : EReal)
      = if a.toNat = j ∨ b.toNat = j then 1 else 0 := by
  show ((((IntOp.ori (IntOp.cmpi .eq (BitVec.ofNat 32 j) a) (IntOp.cmpi .eq (BitVec.ofNat 32 j) b)).setWidth 32).toInt : ℝ) : EReal) = _
  rw [toInt_widen_bit, cmp_col a j hj, cmp_col b j hj]
  by_cases ha : a.toNat = j <;> by_cases hb : b.toNat = j <;> simp [ha, hb, IntOp.ori]

/-- THE ROW TIMES A COLUMN: the row with ones in the distinct columns `a` and `b`, summed against `x`, is `x a + x b`. -/
theorem sum_mul {n : Nat} (hn : n ≤ 2 ^ 32) (a b : BitVec 32) (ha : a.toNat < n) (hb : b.toNat < n)
    (hab : a.toNat ≠ b.toNat) (x : Fin n → EReal) :
    ∑ j : Fin n, (FloatOps.sitofp (F := Ideal) .f32
        ((IntOp.ori (IntOp.cmpi .eq (BitVec.ofNat 32 j.val) a) (IntOp.cmpi .eq (BitVec.ofNat 32 j.val) b)).setWidth 32) : EReal) * x j
      = x ⟨a.toNat, ha⟩ + x ⟨b.toNat, hb⟩ := by
  rw [Finset.sum_eq_add (⟨a.toNat, ha⟩ : Fin n) (⟨b.toNat, hb⟩ : Fin n) (fun e => hab (Fin.mk.inj_iff.mp e))]
  · rw [entry a b _ (by omega), entry a b _ (by omega), if_pos (Or.inl rfl), if_pos (Or.inr rfl), one_mul, one_mul]
  · intro j _ hj
    rw [entry a b _ (by have := j.isLt; omega),
      if_neg (fun e => e.elim (fun e => hj.1 (Fin.ext e.symm)) (fun e => hj.2 (Fin.ext e.symm))), zero_mul]
  · intro h; exact absurd (Finset.mem_univ _) h
  · intro h; exact absurd (Finset.mem_univ _) h

end Idealize.ShloMosaic.TwoHotRow

end
-- ==== Proof.KPayload.lean ====
/-
  The kernel body's arithmetic, entry by entry, over the extended reals.

  The first product: (hidden block, 512 x 1024) times (fused weight, 1024 x 2048); its left and right halves are what
  the two table stores write. The output block: a row vector with ones in columns `start` and `512 + end` (all other
  entries zero) times the 1024 x 1024 table, plus the bias, through the maximum with zero. With both index words below
  512 the two ones sit in different columns, and the product picks out  table[start] + table[512 + end]  exactly: zero
  times anything is zero over the extended reals, so nothing about finiteness is used.
-/
import proofs.«415181_j5995774345595_3_alg».proof.Proof.Gen.KernelIdeal.Skeleton
import proofs.«415181_j5995774345595_3_alg».proof.Proof.LibPlainDot
import proofs.«415181_j5995774345595_3_alg».proof.Proof.LibTwoHotRow
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.SpanKernel

open Idealize.ShloMosaic Idealize.ShloMosaic.TcCoe Idealize.ShloMosaic.Tactic Idealize.ShloMosaic.ValueIdx
open Idealize.SL.Sem
open Cert.KernelIdeal Cert.KernelIdeal.Gen

/-! ## Small layout facts -/

/-- A [1, 1, a] block viewed as a vector of length a reads entry q at (0, 0, q). -/
theorem cast_11a_a {α : Type} {a : ℕ} (x : (⟨3, ![1, 1, a]⟩ : Shape).Idx → α)
    (h : (⟨3, ![1, 1, a]⟩ : Shape).ShapeCasts ⟨1, ![a]⟩) (q : Fin a) :
    shapeCast ⟨1, ![a]⟩ x h (ix1 q) = x (ix3 (0 : Fin 1) (0 : Fin 1) q) :=
  shapeCast_apply x h _ _ (by
    rw [Shape.rowMajor_val_three, Shape.rowMajor_val_one]
    show (0 * 1 + 0) * a + q.val = q.val
    omega)

/-- A vector of length a viewed as a column [a, 1] reads entry (r, 0) at r. -/
theorem cast_a_a1 {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] repeated along b columns reads entry (r, j) at (r, 0). -/
theorem bcast_a1_ab {α : Type} {a b : ℕ} (x : (⟨2, ![a, 1]⟩ : Shape).Idx → α)
    (h : (⟨2, ![a, 1]⟩ : Shape).Broadcasts ⟨2, ![a, b]⟩) (r : Fin a) (j : Fin b) :
    broadcastTo ⟨2, ![a, b]⟩ x h (ix2 r j) = x (ix2 r (0 : Fin 1)) := by
  refine broadcastTo_apply x h (ix2 r j) (ix2 r (0 : Fin 1)) fun ax => ?_
  match ax with
  | ⟨0, _⟩ =>
    show r.val = if a = 1 then 0 else r.val
    split
    · have := r.isLt; omega
    · rfl
  | ⟨1, _⟩ => rfl

/-! ## The first product and its two halves -/

theorem plain1 : PlainDot.IsPlain dot_S512x1024_S1024x2048_S512x2048_1_0_0_1_n_n := ⟨rfl, rfl, rfl, rfl, rfl, rfl⟩
theorem plain2 : PlainDot.IsPlain dot_S1024x1024_S1024x1024_S1024x1024_1_0_0_1_n_n := ⟨rfl, rfl, rfl, rfl, rfl, rfl⟩

variable (v31 : Vec Ideal S1x512x1024 .bf16) (v33 : Vec Ideal S1024x2048 .bf16)

/-- Entry (r, e) of the first product: row r of the hidden block against column e of the fused weight. -/
theorem pay1_apply (r : Fin 512) (e : Fin 2048) :
    k0_pay1 (F := Ideal) v31 v33 (ix2 r e) = ∑ k : Fin 1024, v31 (ix3 (0 : Fin 1) r k) * v33 (ix2 k e) := by
  unfold k0_pay1
  refine (plain1.matmul_zero_apply none _ _ r e).trans ?_
  refine Finset.sum_congr rfl fun k _ => ?_
  rw [shapeCast_1ab_ab_apply, shapeCast_self]

/-- The upper table half at (r, d): the product's column d. -/
theorem pay2_apply (r : Fin 512) (d : Fin 1024) :
    k0_pay2 (F := Ideal) v31 v33 (ix2 r d)
      = ∑ k : Fin 1024, v31 (ix3 (0 : Fin 1) r k) * v33 (ix2 k ⟨d.val, by have := d.isLt; omega⟩) := by
  unfold k0_pay2
  rw [shapeCast_self]
  refine (slice2_axis1_apply 0 (k0_pay1 (F := Ideal) v31 v33) slices_S512x2048_o0_0_S512x1024 r d
    ⟨d.val, by have := d.isLt; omega⟩ (Nat.zero_add _).symm).trans ?_
  exact pay1_apply v31 v33 r _

/-- The lower table half at (r, d): the product's column 1024 + d. -/
theorem pay3_apply (r : Fin 512) (d : Fin 1024) :
    k0_pay3 (F := Ideal) v31 v33 (ix2 r d)
      = ∑ k : Fin 1024, v31 (ix3 (0 : Fin 1) r k) * v33 (ix2 k ⟨1024 + d.val, by have := d.isLt; omega⟩) := by
  unfold k0_pay3
  rw [shapeCast_self]
  refine (slice2_axis1_apply 1024 (k0_pay1 (F := Ideal) v31 v33) slices_S512x2048_o0_1024_S512x1024 r d
    ⟨1024 + d.val, by have := d.isLt; omega⟩ rfl).trans ?_
  exact pay1_apply v31 v33 r _

/-! ## The output block -/

/-- One entry of the row vector the body builds for a span: one at columns `s` and `e + 512`, zero elsewhere. -/
def hot (s e : BitVec 32) (j : Fin 1024) : EReal :=
  FloatOps.sitofp (F := Ideal) .f32
    ((IntOp.ori (IntOp.cmpi .eq (BitVec.ofNat 32 j.val) s) (IntOp.cmpi .eq (BitVec.ofNat 32 j.val) (IntOp.addi e 512#32))).setWidth 32)

variable (v4 v6 : Vec Ideal S1x1x1024 .i32) (v20 : Vec Ideal S1024x1024 .bf16) (v22 : Vec Ideal S1024 .f32)

/-- The 1024 row vectors of a point, one per span, as the body builds them from the two index blocks: the column
    numbers compared with the start word and with the end word moved up by 512, the two answers joined. -/
def hotRows : FVec Ideal S1024x1024 .bf16 :=
  truncf .bf16 (sitofp .f32 (extui 32 (ori
    (cmpi .eq (iota .tc S1024x1024 32 [1] iota_S1024x1024_d1_w32)
      (broadcastTo S1024x1024 (shapeCast S1024x1 (shapeCast S1024 v4 shapeCasts_S1x1x1024_S1024) shapeCasts_S1024_S1024x1) broadcasts_S1024x1_S1024x1024))
    (cmpi .eq (iota .tc S1024x1024 32 [1] iota_S1024x1024_d1_w32)
      (broadcastTo S1024x1024 (shapeCast S1024x1 (addi (shapeCast S1024 v6 shapeCasts_S1x1x1024_S1024) (broadcast S1024 512#32)) shapeCasts_S1024_S1024x1) broadcasts_S1024x1_S1024x1024)))
    natLt_1_32)) bitsLt_bf16_f32

theorem hotRows_apply (r j : Fin 1024) :
    hotRows v4 v6 (ix2 r j) = hot (v4 (ix3 (0 : Fin 1) (0 : Fin 1) r)) (v6 (ix3 (0 : Fin 1) (0 : Fin 1) r)) j := by
  unfold hotRows hot
  simp only [truncf_apply, sitofp_apply, extui_apply, ori, cmpi, addi, iota_single_apply, bcast_a1_ab, cast_a_a1, cast_11a_a,
    broadcast_apply]
  rw [iota_single_apply]

/-- Entry (r, d) of the output block, as the body computes it: the row vector of span r against column d of the
    table, plus the bias, through the maximum with zero. -/
theorem pay4_apply (r d : Fin 1024) :
    k0_pay4 (F := Ideal) v4 v6 v20 v22 (ix3 (0 : Fin 1) r d)
      = max ((∑ j : Fin 1024, hot (v4 (ix3 (0 : Fin 1) (0 : Fin 1) r)) (v6 (ix3 (0 : Fin 1) (0 : Fin 1) r)) j * v20 (ix2 j d))
          + v22 (ix1 d)) (Ideal.ofBits .f32 0x00000000#32) := by
  unfold k0_pay4
  dsimp only
  rw [shapeCast_ab_1ab_apply]
  show maximumf (addf (matmul dot_S1024x1024_S1024x1024_S1024x1024_1_0_0_1_n_n none (hotRows v4 v6) v20 (constant S1024x1024 .f32 0x00000000#32))
    (broadcastTo S1024x1024 (shapeCast S1x1024 v22 shapeCasts_S1024_S1x1024) broadcasts_S1x1024_S1024x1024))
    (broadcast S1024x1024 (FloatOps.ofBits .f32 0x00000000#32)) (ix2 r d) = _
  rw [maximumf_apply, addf_apply, broadcastTo_1b_ab_apply, shapeCast_a_1a_apply, broadcast_apply]
  refine congrArg₂ max (congrArg₂ (· + ·) ((plain2.matmul_zero_apply none (hotRows v4 v6) v20 r d).trans
    (Finset.sum_congr rfl fun j _ => by rw [hotRows_apply])) rfl) rfl

/-- With both index words below 512 the two ones sit in different columns, and the product is the sum of the table's
    rows `start` and `512 + end`: entry (r, d) of the output block is their sum plus the bias, through the maximum with zero. -/
theorem pay4_value (r d : Fin 1024) (hs : (v4 (ix3 (0 : Fin 1) (0 : Fin 1) r)).toNat < 512)
    (he : (v6 (ix3 (0 : Fin 1) (0 : Fin 1) r)).toNat < 512) :
    k0_pay4 (F := Ideal) v4 v6 v20 v22 (ix3 (0 : Fin 1) r d)
      = max ((v20 (ix2 ⟨(v4 (ix3 (0 : Fin 1) (0 : Fin 1) r)).toNat, by omega⟩ d)
            + v20 (ix2 ⟨512 + (v6 (ix3 (0 : Fin 1) (0 : Fin 1) r)).toNat, by omega⟩ d))
          + v22 (ix1 d)) (Ideal.ofBits .f32 0x00000000#32) := by
  rw [pay4_apply]
  have hadd : (IntOp.addi (v6 (ix3 (0 : Fin 1) (0 : Fin 1) r)) 512#32).toNat = 512 + (v6 (ix3 (0 : Fin 1) (0 : Fin 1) r)).toNat := by
    show (v6 (ix3 (0 : Fin 1) (0 : Fin 1) r) + 512#32).toNat = _
    rw [BitVec.toNat_add]
    have h512 : (512#32 : BitVec 32).toNat = 512 := rfl
    rw [h512]
    omega
  have key := TwoHotRow.sum_mul (n := 1024) (by norm_num) (v4 (ix3 (0 : Fin 1) (0 : Fin 1) r))
    (IntOp.addi (v6 (ix3 (0 : Fin 1) (0 : Fin 1) r)) 512#32) (by omega) (by omega) (by omega) (fun j => v20 (ix2 j d))
  refine congrArg₂ max (congrArg₂ (· + ·) (key.trans (congrArg₂ (· + ·) rfl
    (congrArg (fun q : Fin 1024 => v20 (ix2 q d)) (Fin.ext hadd)))) rfl) rfl

end Cert.SpanKernel

end
-- ==== Proof.KPrefix.lean ====
/-
  What the pipelined region finds in its argument arrays: the contents the host operations before it leave.

  The hidden states are found as launched (their conversion to the narrower format is the identity on extended
  reals). The start and end index arrays hold, at (b, 0, n), entry (b, n / 16, n % 16, 0) and (b, n / 16, n % 16, 1)
  of the launched index array, clipped as a signed number into 0 .. 511. The weight array holds, at (k, d) for
  d < 1024, the launched weight at (d, k), and at (k, 1024 + d) the launched weight at (d, 1024 + k): the two
  1024-column halves, each transposed, side by side.
-/
import proofs.«415181_j5995774345595_3_alg».proof.Proof.Gen.KernelIdeal.Frame.Runs
import proofs.«415181_j5995774345595_3_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.SpanKernel

open Cert.KernelIdeal Cert.KernelIdeal.Gen Idealize.ShloMosaic Idealize.ShloMosaic.ValueIdx Idealize.SL.Sem Cert.SpanSpec
open Idealize.ShloMosaic.TcCoe

section
variable (m : (ℓ : Loc nD τ sig) → Buf (Elt Ideal) ℓ) (c : Dev nD)

/-- The clipped endpoint array read at (b, 0, n): the index array regrouped to 8 x 8192 x 2, its column `s` cut out,
    clipped below by 0 and above by 511, regrouped to 8 x 1 x 8192, is the clipped word at entry (b, n / 16, n % 16, s). -/
theorem clip_read (A : S8x512x16x2.Idx → BitVec 32) (o : ℕ) (s : Fin 2) (hso : s.val = o)
    (hs : S8x8192x2.Slices ![0, 0, o] S8x8192x1) (b : Fin 8) (n : Fin 8192) :
    shapeCast S8x1x8192
        (minsi (broadcastInDim S8x8192 ![] bcast_S_S8x8192 (constantI S_ 32 511#32))
          (maxsi (broadcastInDim S8x8192 ![] bcast_S_S8x8192 (constantI S_ 32 0#32))
            (shapeCast S8x8192
              (extractStridedSlice S8x8192x1 ![0, 0, o] (shapeCast S8x8192x2 A shapeCasts_S8x512x16x2_S8x8192x2) hs)
              shapeCasts_S8x8192x1_S8x8192)))
        shapeCasts_S8x8192_S8x1x8192 (ix3 b (0 : Fin 1) n)
      = clipW (A (ix4 b ⟨n.val / 16, by have := n.isLt; omega⟩ ⟨n.val % 16, Nat.mod_lt _ (by decide)⟩ s)) := by
  have hn := n.isLt
  have hb := b.isLt
  refine (shapeCast_apply _ _ (ix3 b (0 : Fin 1) n) (ix2 b n) ?_).trans ?_
  · rw [Shape.rowMajor_val_two, Shape.rowMajor_val_three]
    show b.val * 8192 + n.val = (b.val * 1 + 0) * 8192 + n.val
    omega
  show IntOp.minsi 511#32 (IntOp.maxsi 0#32 _) = clipW _
  unfold clipW
  congr 2
  refine (shapeCast_apply _ _ (ix2 b n) (ix3 b n (0 : Fin 1)) ?_).trans ?_
  · rw [Shape.rowMajor_val_two, Shape.rowMajor_val_three]
    show (b.val * 8192 + n.val) * 1 + 0 = b.val * 8192 + n.val
    omega
  refine (extractStridedSlice_apply _ _ hs (ix3 b n (0 : Fin 1)) (ix3 b n s) (fun a => ?_)).trans ?_
  · match a with
    | ⟨0, _⟩ => exact (Nat.zero_add _).symm
    | ⟨1, _⟩ => exact (Nat.zero_add _).symm
    | ⟨2, _⟩ => exact hso
  refine shapeCast_apply _ _ (ix3 b n s) _ ?_
  rw [Shape.rowMajor_val_three, Shape.rowMajor_val_four]
  show ((b.val * 512 + n.val / 16) * 16 + n.val % 16) * 2 + s.val = (b.val * 8192 + n.val) * 2 + s.val
  omega

/-- The hidden states, as the region finds them, are the launched ones. -/
theorem V_h : (V m c main_v9 : S8x512x1024.Idx → EReal) = m ((c : Thread nD τ).loc main_arg0) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The start index array at (b, 0, n): the clipped start word of span n of batch b. -/
theorem V_start (b : Fin 8) (n : Fin 8192) : (V m c main_v7 : S8x1x8192.Idx → BitVec 32) (ix3 b (0 : Fin 1) n) = clipW (m ((c : Thread nD τ).loc main_arg1) (ix4 b ⟨n.val / 16, by have := n.isLt; omega⟩ ⟨n.val % 16, Nat.mod_lt _ (by decide)⟩ (0 : Fin 2))) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact clip_read (m ((c : Thread nD τ).loc main_arg1)) 0 (0 : Fin 2) rfl slices_S8x8192x2_S8x8192x1_0_0_0 b n

/-- The end index array at (b, 0, n): the clipped end word of span n of batch b. -/
theorem V_end (b : Fin 8) (n : Fin 8192) : (V m c main_v8 : S8x1x8192.Idx → BitVec 32) (ix3 b (0 : Fin 1) n) = clipW (m ((c : Thread nD τ).loc main_arg1) (ix4 b ⟨n.val / 16, by have := n.isLt; omega⟩ ⟨n.val % 16, Nat.mod_lt _ (by decide)⟩ (1 : Fin 2))) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact clip_read (m ((c : Thread nD τ).loc main_arg1)) 1 (1 : Fin 2) rfl slices_S8x8192x2_S8x8192x1_0_0_1 b n

/-- The weight array's left half: at (k, d) it holds the launched weight at (d, k). -/
theorem V_w_left (k d : Fin 1024) : (V m c main_v15 : S1024x2048.Idx → EReal) (ix2 k ⟨d.val, by have := d.isLt; omega⟩) = m ((c : Thread nD τ).loc main_arg2) (ix2 d ⟨k.val, by have := k.isLt; omega⟩) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rw [ValueIdx.truncf_apply]
  refine (concatenate_pair_apply_left (t := S1024x2048) (s₁ := S1024x1024) (s₂ := S1024x1024) (1 : Fin 2) _ _ _ (ix2 k ⟨d.val, by have := d.isLt; omega⟩) rfl (ix2 k d) (fun b => match b with | ⟨0, _⟩ => rfl | ⟨1, _⟩ => rfl)).trans ?_
  rw [transpose_ix2_apply]
  exact slice2_axis1_apply 0 _ _ d k _ (by simp)

/-- The weight array's right half: at (k, 1024 + d) it holds the launched weight at (d, 1024 + k). -/
theorem V_w_right (k d : Fin 1024) : (V m c main_v15 : S1024x2048.Idx → EReal) (ix2 k ⟨1024 + d.val, by have := d.isLt; omega⟩) = m ((c : Thread nD τ).loc main_arg2) (ix2 d ⟨1024 + k.val, by have := k.isLt; omega⟩) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rw [ValueIdx.truncf_apply]
  refine (concatenate_pair_apply_right (t := S1024x2048) (s₁ := S1024x1024) (s₂ := S1024x1024) (1 : Fin 2) _ _ _ (ix2 k ⟨1024 + d.val, by have := d.isLt; omega⟩) rfl rfl (ix2 k d) (fun b => match b with | ⟨0, _⟩ => fun _ => rfl | ⟨1, _⟩ => fun h => absurd rfl h) (by show d.val + 1024 = 1024 + d.val; omega)).trans ?_
  rw [transpose_ix2_apply]
  exact slice2_axis1_apply 1024 _ _ d k _ rfl

end

end Cert.SpanKernel

end
-- ==== Proof.KTail.lean ====
/-
  The region's output array after the run, as far as indices and the run itself go.

  The grid is 8 x 8; point t writes back block (t / 8, t % 8, 0) of the 8 x 8192 x 1024 output array, in blocks of
  1 x 1024 x 1024. So an index (b, n, d) is in point t's block iff b = t / 8, n lies in [1024 (t % 8), +1024) and
  d < 1024 (`mem_blk5`), and every index is in the block of the point b * 8 + n / 1024, which writes back
  (`cover5`). The run then ends with the result holding the output array regrouped to 8 x 512 x 16 x 1024 — the one
  operation after the region — and the four arguments unchanged (`run_read`).
-/
import proofs.«415181_j5995774345595_3_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.SpanKernel

open Cert.KernelIdeal Cert.KernelIdeal.Gen Idealize.ShloMosaic Idealize.ShloMosaic.ValueIdx Idealize.SL.Sem
open Idealize.ShloMosaic.TcCoe
open Idealize.ShloMosaic.Pipeline (Dat)

/-- An index of the output array is in point `t`'s block iff each coordinate is in the block's range on its axis. -/
theorem mem_blk5 (t : Fin cfg0.N) (i : S8x8192x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v16).slice (win0_5.rect t)).set ↔ _
  rw [View.set_slice_whole, Rect.mem_set_unit]
  exact Iff.rfl

/-- The output's block index at grid point `t` of the 8 x 8 grid: (t / 8, t % 8, 0), decided over the 64 points. -/
theorem idx5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, win0_5.index t (0 : Fin 3) = t.val / 8 ∧ win0_5.index t (1 : Fin 3) = t.val % 8 ∧ win0_5.index t (2 : Fin 3) = 0)

/-- Every index of the output array is in the block of some point that writes back: (b, n, d) in that of point b * 8 + n / 1024. -/
theorem cover5 (i : S8x8192x1024.Idx) : ∃ t : Fin cfg0.N, (cfg0.win 5).flush t = true ∧ i ∈ ((cfg0.win 5).blk t).view.set := by
  have hN : cfg0.N = 64 := N_0
  have h0 : (i 0).val < 8 := (i 0).isLt
  have h1 : (i 1).val < 8192 := (i 1).isLt
  have h2 : (i 2).val < 1024 := (i 2).isLt
  obtain ⟨t, ht⟩ : ∃ t : Fin cfg0.N, t.val = (i 0).val * 8 + (i 1).val / 1024 := ⟨⟨(i 0).val * 8 + (i 1).val / 1024, by rw [hN]; omega⟩, rfl⟩
  obtain ⟨e0, e1, e2⟩ := idx5 t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

section
variable (m : (ℓ : Loc nD τ sig) → Buf (Elt Ideal) ℓ) (ρ : Dev nD → PrngReg)

/-- What the one host operation after the region leaves in the result: the regrouping of the region's output array. -/
theorem tail_v17 (c : Dev nD) : Pipeline.afterTail₀ cfgs (dats m) 0 (V0 m) [hostOps1] c main_v17 = shapeCast S8x512x16x1024 ((dats m 0 c).arrAt 5 cfg0.N) shapeCasts_S8x8192x1024_S8x512x16x1024 := by
  unfold Pipeline.afterTail₀
  show StableHlo.after hostOps1 _ (Proc.devRef .tc main_v17) = _
  after_results
  exact congrArg (fun X : S8x8192x1024.Idx → EReal => shapeCast S8x512x16x1024 X shapeCasts_S8x8192x1024_S8x512x16x1024)
    (Pipeline.withArrays_arr spec0 launch0.win.arr_inj c (V0 m c) (fun w => (dats m 0 c).arrAt w cfg0.N) 5)

/-- The run, read: the result is the regrouped output array of the region, and the four arguments end as launched. -/
theorem run_read : θ_run defs (onTc (τ := τ) (main (F := Ideal))) ⟨m, fun _ => 0, ρ⟩ (fun r => ∀ c : Dev nD,
      r.2.mem ((c.tc : Thread nD τ).loc main_v17) = shapeCast S8x512x16x1024 ((dats m 0 c).arrAt 5 cfg0.N) shapeCasts_S8x8192x1024_S8x512x16x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v17 (Pipeline.mem_restRefs_of main_v17 (by decide) (by decide))).trans (tail_v17 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c)))⟩) (run_main m ρ)

end

end Cert.SpanKernel

end
-- ==== Proof.KValue.lean ====
/-
  The kernel's result array.

  Every point writes back one [1, 1024, 1024] block of the [8, 8192, 1024] output; the 64 blocks tile it. Entry (r, d)
  of point t's block is the layer's value at batch t / 8, span (t % 8) * 1024 + r, feature d: the body's two-ones
  row vector picks rows `start` and `512 + end` of the batch's table, which are the start row of the hidden states
  against the left half of weight row d and the end row against its right half. So the whole output array is the
  layer's function of the launched arrays, and the program's result is that array regrouped to [8, 512, 16, 1024].
-/
import proofs.«415181_j5995774345595_3_alg».proof.Proof.KBlocks
import proofs.«415181_j5995774345595_3_alg».proof.Proof.KTable
import proofs.«415181_j5995774345595_3_alg».proof.Proof.KPayload
import proofs.«415181_j5995774345595_3_alg».proof.Proof.KPrefix
import proofs.«415181_j5995774345595_3_alg».proof.Proof.KTail
import proofs.«415181_j5995774345595_3_alg».proof.Proof.Spec
import Idealize.ShloMosaic.Lib.Pipeline.Value
import Idealize.ShloMosaic.Lib.ValueIdx
set_option maxRecDepth 16384

noncomputable section

namespace Cert.SpanKernel

open Idealize.ShloMosaic Idealize.ShloMosaic.TcCoe Idealize.ShloMosaic.Tactic Idealize.ShloMosaic.ValueIdx
open Idealize.SL.Sem
open Cert.KernelIdeal Cert.KernelIdeal.Gen

open Cert.SpanSpec
open Idealize.ShloMosaic.Pipeline (Dat)

variable (m : (ℓ : Loc nD τ sig) → Buf (Elt Ideal) ℓ) (ρ : Dev nD → PrngReg) (c : Dev nD)

/-- THE LAYER of the launched arrays, entry (b, n, d) of [8, 8192, 1024]. -/
abbrev layer : FVec Ideal S8x8192x1024 .f32 :=
  G (m ((c : Thread nD τ).loc main_arg0)) (m ((c : Thread nD τ).loc main_arg1)) (m ((c : Thread nD τ).loc main_arg2)) (m ((c : Thread nD τ).loc main_arg3))

/-- Row s (below 512) of batch b's table at column d: the start-side half of the linear layer. -/
theorem tableB_upper (b : Fin 8) (s : Fin 512) (d : Fin 1024) :
    tableB m c b (ix2 ⟨s.val, by have := s.isLt; omega⟩ d)
      = half (m ((c : Thread nD τ).loc main_arg0)) (m ((c : Thread nD τ).loc main_arg2)) b s d 0 (by decide) := by
  refine (tableOf_upper (hmat m c b) (warr m c) s d).trans ((pay2_apply _ _ s d).trans ?_)
  unfold half
  refine Finset.sum_congr rfl fun k _ => ?_
  refine congrArg₂ (· * ·) (congrFun (V_h m c) (ix3 b s k)) ((V_w_left m c k d).trans
    (congrArg (fun q => (m ((c : Thread nD τ).loc main_arg2)) (ix2 d q)) (Fin.ext (Nat.zero_add _).symm)))

/-- Row 512 + e of batch b's table at column d: the end-side half. -/
theorem tableB_lower (b : Fin 8) (e : Fin 512) (d : Fin 1024) :
    tableB m c b (ix2 ⟨512 + e.val, by have := e.isLt; omega⟩ d)
      = half (m ((c : Thread nD τ).loc main_arg0)) (m ((c : Thread nD τ).loc main_arg2)) b e d 1024 (by decide) := by
  refine (tableOf_lower (hmat m c b) (warr m c) e d).trans ((pay3_apply _ _ e d).trans ?_)
  unfold half
  refine Finset.sum_congr rfl fun k _ => ?_
  exact congrArg₂ (· * ·) (congrFun (V_h m c) (ix3 b e k)) (V_w_right m c k d)

/-- The body's output entry, once the two index words of the span are known to be the words S and E below 512. -/
theorem value_of_words (b : Fin 8) (S E : BitVec 32) (hS : S.toNat < 512) (hE : E.toNat < 512)
    (v4 v6 : Vec Ideal S1x1x1024 .i32) (r d : Fin 1024)
    (h4 : v4 (ix3 (0 : Fin 1) (0 : Fin 1) r) = S) (h6 : v6 (ix3 (0 : Fin 1) (0 : Fin 1) r) = E) :
    k0_pay4 (F := Ideal) v4 v6 (tableB m c b) (barr m c) (ix3 (0 : Fin 1) r d)
      = max ((half (m ((c : Thread nD τ).loc main_arg0)) (m ((c : Thread nD τ).loc main_arg2)) b ⟨S.toNat, hS⟩ d 0 (by decide)
            + half (m ((c : Thread nD τ).loc main_arg0)) (m ((c : Thread nD τ).loc main_arg2)) b ⟨E.toNat, hE⟩ d 1024 (by decide))
          + (m ((c : Thread nD τ).loc main_arg3)) (ix1 d)) (Ideal.ofBits .f32 0x00000000#32) := by
  subst h4 h6
  rw [pay4_value v4 v6 (tableB m c b) (barr m c) r d hS hE]
  refine congrArg₂ max (congrArg₂ (· + ·) (congrArg₂ (· + ·) ?_ ?_) ?_) rfl
  · exact tableB_upper m c b ⟨_, hS⟩ d
  · exact tableB_lower m c b ⟨_, hE⟩ d
  · exact congrFun (V_main_arg3 m c) (ix1 d)

/-- Entry (r, d) of what point t leaves in the output's staging buffer is the layer at (t / 8, (t % 8) * 1024 + r, d). -/
theorem point_value (t : Fin cfg0.N) (r d : Fin 1024) :
    k0_pay4 (F := Ideal) (sblk m c t) (eblk m c t) (tableB m c ⟨t.val / 8, by have := t_lt t; omega⟩) (barr m c) (ix3 (0 : Fin 1) r d)
      = layer m c (ix3 ⟨t.val / 8, by have := t_lt t; omega⟩ ⟨t.val % 8 * 1024 + r.val, by have := r.isLt; omega⟩ d) := by
  have hs := (sblk_apply m c t (0 : Fin 1) (0 : Fin 1) r).trans (V_start m c _ _)
  have he := (eblk_apply m c t (0 : Fin 1) (0 : Fin 1) r).trans (V_end m c _ _)
  refine (value_of_words m c _ _ _ (clipW_toNat_lt _) (clipW_toNat_lt _) (sblk m c t) (eblk m c t) r d hs he).trans ?_
  rfl

/-- WHAT POINT t WRITES BACK is block t of the layer. -/
theorem flushed_eq (t : Fin cfg0.N) :
    (dats m 0 c).flushed 5 t = ((cfg0.win 5).blk t).view.read (Elt Ideal) (layer m c) := by
  obtain ⟨e0, e1, e2⟩ := idx5 t
  have hlt := t_lt t
  show (cfg0.win 5).cut (grid0.coords t) ((dats m 0 c).after 5 t) = _
  rw [after0_5, out_at]
  funext (j : S1x1024x1024.Idx)
  show k0_pay4 (F := Ideal) (sblk m c t) (eblk m c t) (tableB m c ⟨t.val / 8, by omega⟩) (barr m c) j
    = layer m c (((cfg0.win 5).blk t).view.emb j)
  obtain ⟨r, d, rfl⟩ : ∃ r d : Fin 1024, j = ix3 (0 : Fin 1) r d :=
    ⟨j 1, j 2, funext fun a => by
      match a with
      | ⟨0, _⟩ => exact Fin.ext (by show (j 0).val = 0; have : (j 0).val < 1 := (j 0).isLt; omega)
      | ⟨1, _⟩ => rfl
      | ⟨2, _⟩ => rfl⟩
  refine (point_value m c t r d).trans (congrArg (layer m c) ?_)
  funext a
  apply Fin.ext
  match a with
  | ⟨0, _⟩ => show t.val / 8 = win0_5.index t (0 : Fin 3) * 1 + 1 * 0; rw [e0]; omega
  | ⟨1, _⟩ => show t.val % 8 * 1024 + r.val = win0_5.index t (1 : Fin 3) * 1024 + 1 * r.val; rw [e1]; omega
  | ⟨2, _⟩ => show d.val = win0_5.index t (2 : Fin 3) * 1024 + 1 * d.val; rw [e2]; omega

/-- THE OUTPUT ARRAY after the run is the layer of the launched arrays: the 64 blocks cover it. -/
theorem final5 : (dats m 0 c).arrAt 5 cfg0.N = layer m c :=
  (dats m 0 c).arrAt_eq_of_cover 5 (layer m c) (fun t _ => flushed_eq m c t) cover5

/-- The run, read: the result is the layer regrouped to [8, 512, 16, 1024], the four arguments are unchanged. -/
theorem run : θ_run defs (onTc (τ := τ) (main (F := Ideal))) ⟨m, fun _ => 0, ρ⟩ (fun r => ∀ c : Dev nD,
      r.2.mem ((c.tc : Thread nD τ).loc main_v17)
        = shapeCast S8x512x16x1024 (layer m c) shapeCasts_S8x8192x1024_S8x512x16x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans
      (congrArg (fun X => shapeCast S8x512x16x1024 X shapeCasts_S8x8192x1024_S8x512x16x1024) (final5 m c)), (h c).2⟩)
    (run_read m ρ)

end Cert.SpanKernel

end
-- ==== Proof.RefValue.lean ====
/-
  The reference program's value, before its final regrouping of the span axis, is the span-endpoint layer of
  Spec.lean.

  At (b, n, d): each gather reads the hidden-state array at a two-word index [batch, row]. The batch word is the
  batch number b (below 8, so the "negative index + 8" choice keeps it, and the gather's clamp into 0 .. 7 is the
  identity); the row word is the endpoint word of span n = (n / 16, n % 16) clipped into 0 .. 511 (so the
  "negative index + 512" choice keeps it, and the gather's clamp into 0 .. 511 is the identity). The two gathered
  rows are joined along the feature axis into 2048 entries, and the contraction of those against row d of the
  1024 x 2048 weight splits into its first 1024 terms (the start row against the left half of the weight row) and
  its last 1024 terms (the end row against the right half): only that a finite sum over 1024 + 1024 indices is the sum
  of its two blocks is used. Then the bias and the maximum with 0.
-/
import proofs.«415181_j5995774345595_3_alg».proof.Proof.RefRead
import proofs.«415181_j5995774345595_3_alg».proof.Proof.Spec
import Idealize.ShloMosaic.Lib.Pipeline.Value
import Idealize.ShloMosaic.Lib.ValueIdx
import Mathlib.Algebra.BigOperators.Fin

noncomputable section

namespace Cert.SpanRef

open Cert.ReferenceIdeal Cert.ReferenceIdeal.Gen Cert.ReferenceIdeal.ReadCopy Cert.SpanSpec Idealize.ShloMosaic Idealize.ShloMosaic.ValueIdx

/-- A batch number below 8, written as a 32-bit word and read back signed, is itself. -/
theorem batchWord_toInt_toNat : ∀ b : Fin 8, (BitVec.ofNat 32 b.val).toInt.toNat = b.val := by decide

/-! ## The gather and the two concatenations, read at an index -/

section Gather
variable {α : Type}

/-- The gather of rows read at (b, n, c): when the index pair at (b, n) is the batch number b and a word whose signed
    value is the row r (below 512), both clamps are the identity and the element is the operand's at (b, r, c). -/
theorem gather_rows_apply (x : S8x512x1024.Idx → α) (idx : IVec S8x8192x2 32)
    (b : Fin 8) (n : Fin 8192) (c : Fin 1024) (r : Fin 512)
    (hb : idx (ix3 b n 0) = BitVec.ofNat 32 b.val)
    (hr : (idx (ix3 b n 1)).toInt.toNat = r.val) :
    Host.gather gather_S8x512x1024_S8x8192x2_S8x8192x1024_2_01_n_n_01_2_111024 x idx (ix3 b n c) = x (ix3 b r c) := by
  unfold Host.gather
  congr 1
  funext a
  refine Fin.ext ?_
  match a with
  | ⟨0, _⟩ =>
    show gather_S8x512x1024_S8x8192x2_S8x8192x1024_2_01_n_n_01_2_111024.start (ix3 b n c) idx 0
      + gather_S8x512x1024_S8x8192x2_S8x8192x1024_2_01_n_n_01_2_111024.batchCoord (ix3 b n c) 0
      + gather_S8x512x1024_S8x8192x2_S8x8192x1024_2_01_n_n_01_2_111024.offCoord (ix3 b n c) 0 = b.val
    rw [GatherDims.batchCoord_eq_zero _ _ _ List.not_mem_nil,
      GatherDims.offCoord_eq_zero _ _ _ (fun h => ((GatherDims.mem_sKept _ _).mp h).1 (by decide))]
    unfold GatherDims.start
    rw [dif_pos (show (0 : Fin 3) ∈ gather_S8x512x1024_S8x8192x2_S8x8192x1024_2_01_n_n_01_2_111024.startIndexMap by decide)]
    have hsi : gather_S8x512x1024_S8x8192x2_S8x8192x1024_2_01_n_n_01_2_111024.siIdx (ix3 b n c)
        ⟨List.idxOf (0 : Fin 3) gather_S8x512x1024_S8x8192x2_S8x8192x1024_2_01_n_n_01_2_111024.startIndexMap,
          List.idxOf_lt_length_iff.2 (by decide)⟩ = ix3 b n 0 := by
      funext e; refine Fin.ext ?_
      match e with
      | ⟨0, _⟩ => rfl
      | ⟨1, _⟩ => rfl
      | ⟨2, _⟩ => rfl
    rw [hsi, hb, batchWord_toInt_toNat]
    show min b.val (8 - 1) + 0 + 0 = b.val
    have := b.isLt; omega
  | ⟨1, _⟩ =>
    show gather_S8x512x1024_S8x8192x2_S8x8192x1024_2_01_n_n_01_2_111024.start (ix3 b n c) idx 1
      + gather_S8x512x1024_S8x8192x2_S8x8192x1024_2_01_n_n_01_2_111024.batchCoord (ix3 b n c) 1
      + gather_S8x512x1024_S8x8192x2_S8x8192x1024_2_01_n_n_01_2_111024.offCoord (ix3 b n c) 1 = r.val
    rw [GatherDims.batchCoord_eq_zero _ _ _ List.not_mem_nil,
      GatherDims.offCoord_eq_zero _ _ _ (fun h => ((GatherDims.mem_sKept _ _).mp h).1 (by decide))]
    unfold GatherDims.start
    rw [dif_pos (show (1 : Fin 3) ∈ gather_S8x512x1024_S8x8192x2_S8x8192x1024_2_01_n_n_01_2_111024.startIndexMap by decide)]
    have hsi : gather_S8x512x1024_S8x8192x2_S8x8192x1024_2_01_n_n_01_2_111024.siIdx (ix3 b n c)
        ⟨List.idxOf (1 : Fin 3) gather_S8x512x1024_S8x8192x2_S8x8192x1024_2_01_n_n_01_2_111024.startIndexMap,
          List.idxOf_lt_length_iff.2 (by decide)⟩ = ix3 b n 1 := by
      funext e; refine Fin.ext ?_
      match e with
      | ⟨0, _⟩ => rfl
      | ⟨1, _⟩ => rfl
      | ⟨2, _⟩ => rfl
    rw [hsi, hr]
    show min r.val (512 - 1) + 0 + 0 = r.val
    have := r.isLt; omega
  | ⟨2, _⟩ =>
    show gather_S8x512x1024_S8x8192x2_S8x8192x1024_2_01_n_n_01_2_111024.start (ix3 b n c) idx 2
      + gather_S8x512x1024_S8x8192x2_S8x8192x1024_2_01_n_n_01_2_111024.batchCoord (ix3 b n c) 2
      + gather_S8x512x1024_S8x8192x2_S8x8192x1024_2_01_n_n_01_2_111024.offCoord (ix3 b n c) 2 = c.val
    rw [GatherDims.batchCoord_eq_zero _ _ _ List.not_mem_nil]
    unfold GatherDims.start GatherDims.offCoord
    rw [dif_neg (show (2 : Fin 3) ∉ gather_S8x512x1024_S8x8192x2_S8x8192x1024_2_01_n_n_01_2_111024.startIndexMap by decide),
      dif_pos (show (2 : Fin 3) ∈ gather_S8x512x1024_S8x8192x2_S8x8192x1024_2_01_n_n_01_2_111024.sKept by decide)]
    show 0 + 0 + c.val = c.val
    omega

end Gather

section Concat
variable {α : Type}

/-- Two index columns joined along the last axis: position 0 is the first column … -/
theorem wordPair_apply_zero (u v : S8x8192x1.Idx → α) (b : Fin 8) (n : Fin 8192) :
    concatenate S8x8192x2 2 [⟨S8x8192x1, u⟩, ⟨S8x8192x1, v⟩] concatenates_S8x8192x1_S8x8192x1_S8x8192x2_d2 (ix3 b n 0)
      = u (ix3 b n 0) :=
  concatenate_pair_apply_left (t := S8x8192x2) (s₁ := S8x8192x1) (s₂ := S8x8192x1) 2 u v
    concatenates_S8x8192x1_S8x8192x1_S8x8192x2_d2 (ix3 b n 0) rfl (ix3 b n 0) (fun e => match e with
    | ⟨0, _⟩ => rfl
    | ⟨1, _⟩ => rfl
    | ⟨2, _⟩ => rfl)

/-- … and position 1 the second. -/
theorem wordPair_apply_one (u v : S8x8192x1.Idx → α) (b : Fin 8) (n : Fin 8192) :
    concatenate S8x8192x2 2 [⟨S8x8192x1, u⟩, ⟨S8x8192x1, v⟩] concatenates_S8x8192x1_S8x8192x1_S8x8192x2_d2 (ix3 b n 1)
      = v (ix3 b n 0) :=
  concatenate_pair_apply_right (t := S8x8192x2) (s₁ := S8x8192x1) (s₂ := S8x8192x1) 2 u v
    concatenates_S8x8192x1_S8x8192x1_S8x8192x2_d2 (ix3 b n 1) rfl rfl (ix3 b n 0) (fun e he => match e, he with
    | ⟨0, _⟩, _ => rfl
    | ⟨1, _⟩, _ => rfl
    | ⟨2, _⟩, he => absurd rfl he) rfl

/-- Two 1024-wide arrays joined along the last axis: a position below 1024 reads the first … -/
theorem rowPair_apply_left (u v : S8x8192x1024.Idx → α) (b : Fin 8) (n : Fin 8192) (c : Fin 1024) :
    concatenate S8x8192x2048 2 [⟨S8x8192x1024, u⟩, ⟨S8x8192x1024, v⟩] concatenates_S8x8192x1024_S8x8192x1024_S8x8192x2048_d2
      (ix3 b n (⟨c.val, by have := c.isLt; omega⟩ : Fin 2048)) = u (ix3 b n c) :=
  concatenate_pair_apply_left (t := S8x8192x2048) (s₁ := S8x8192x1024) (s₂ := S8x8192x1024) 2 u v
    concatenates_S8x8192x1024_S8x8192x1024_S8x8192x2048_d2 (ix3 b n (⟨c.val, by have := c.isLt; omega⟩ : Fin 2048)) rfl (ix3 b n c)
    (fun e => match e with
    | ⟨0, _⟩ => rfl
    | ⟨1, _⟩ => rfl
    | ⟨2, _⟩ => rfl)

/-- … and position 1024 + c reads the second at c. -/
theorem rowPair_apply_right (u v : S8x8192x1024.Idx → α) (b : Fin 8) (n : Fin 8192) (c : Fin 1024) :
    concatenate S8x8192x2048 2 [⟨S8x8192x1024, u⟩, ⟨S8x8192x1024, v⟩] concatenates_S8x8192x1024_S8x8192x1024_S8x8192x2048_d2
      (ix3 b n (⟨1024 + c.val, by have := c.isLt; omega⟩ : Fin 2048)) = v (ix3 b n c) :=
  concatenate_pair_apply_right (t := S8x8192x2048) (s₁ := S8x8192x1024) (s₂ := S8x8192x1024) 2 u v
    concatenates_S8x8192x1024_S8x8192x1024_S8x8192x2048_d2 (ix3 b n (⟨1024 + c.val, by have := c.isLt; omega⟩ : Fin 2048)) rfl rfl (ix3 b n c)
    (fun e he => match e, he with
    | ⟨0, _⟩, _ => rfl
    | ⟨1, _⟩, _ => rfl
    | ⟨2, _⟩, he => absurd rfl he) (by show c.val + 1024 = 1024 + c.val; omega)

end Concat

/-! ## The index words -/

section Words
variable {F : FTy → Type} [FloatOps F]

/-- The "negative batch number + 8" choice keeps a batch number below 8. -/
theorem batchSelect : ∀ b : Fin 8, Scalar.select (IntOp.cmpi .slt (BitVec.ofNat 32 b.val) 0#32)
    (IntOp.addi (BitVec.ofNat 32 b.val) 8#32) (BitVec.ofNat 32 b.val) = BitVec.ofNat 32 b.val := by decide

/-- The "negative row + 512" choice keeps a clipped word. -/
theorem clipSelect (w : BitVec 32) : Scalar.select (IntOp.cmpi .slt (clipW w) 0#32)
    (IntOp.addi (clipW w) 512#32) (clipW w) = clipW w := by
  have h := (clipW_toInt w).1
  have h0 : (0#32 : BitVec 32).toInt = 0 := by decide
  have hs : (clipW w).slt 0#32 = false := by
    simp only [BitVec.slt, h0, decide_eq_false_iff_not, not_lt]; exact h
  have hc : IntOp.cmpi .slt (clipW w) 0#32 = 0#1 := by
    show BitVec.ofBool ((clipW w).slt 0#32) = 0#1
    rw [hs]; rfl
  rw [hc, select_zero]

/-- Entry (b, n, s) of the index array regrouped to 8 x 8192 x 2 is entry (b, n / 16, n % 16, s) of the original. -/
theorem idx_regroup (b : Fin 8) (n : Fin 8192) (s : Fin 2) :
    idx_main_v0 (ix3 b n s) = ix4 b ⟨n.val / 16, by have := n.isLt; omega⟩ ⟨n.val % 16, Nat.mod_lt _ (by decide)⟩ s := by
  funext a; refine Fin.ext ?_
  have hn := n.isLt; have hb := b.isLt; have hs := s.isLt
  match a with
  | ⟨0, _⟩ => show ((b.val * 8192 + n.val) * 2 + s.val) / 16384 = b.val; omega
  | ⟨1, _⟩ => show ((b.val * 8192 + n.val) * 2 + s.val) / 32 % 512 = n.val / 16; omega
  | ⟨2, _⟩ => show ((b.val * 8192 + n.val) * 2 + s.val) / 2 % 16 = n.val % 16; omega
  | ⟨3, _⟩ => show ((b.val * 8192 + n.val) * 2 + s.val) % 2 = s.val; omega

/-- Dropping the unit axis of the start column: entry (b, n) of the flat column is entry (b, n, 0). -/
theorem idx_flat_v2 (b : Fin 8) (n : Fin 8192) : idx_main_v2 (ix2 b n) = ix3 b n 0 := by
  funext a; refine Fin.ext ?_
  have hn := n.isLt
  match a with
  | ⟨0, _⟩ => show (b.val * 8192 + n.val) / 8192 = b.val; omega
  | ⟨1, _⟩ => show (b.val * 8192 + n.val) / 1 % 8192 = n.val; omega
  | ⟨2, _⟩ => rfl

/-- The same for the end column. -/
theorem idx_flat_v5 (b : Fin 8) (n : Fin 8192) : idx_main_v5 (ix2 b n) = ix3 b n 0 := by
  funext a; refine Fin.ext ?_
  have hn := n.isLt
  match a with
  | ⟨0, _⟩ => show (b.val * 8192 + n.val) / 8192 = b.val; omega
  | ⟨1, _⟩ => show (b.val * 8192 + n.val) / 1 % 8192 = n.val; omega
  | ⟨2, _⟩ => rfl

/-- The start column, clipped: the word the first gather's row component starts from. -/
theorem start_clipped (x1 : (⟨S8x512x16x2, .i32⟩ : BufTy).Contents (Elt F)) (b : Fin 8) (n : Fin 8192) :
    val_main_v3 (F := F) x1 (ix2 b n)
      = clipW (x1 (ix4 b ⟨n.val / 16, by have := n.isLt; omega⟩ ⟨n.val % 16, Nat.mod_lt _ (by decide)⟩ 0)) := by
  have e1 : idx_main_v1 (ix3 b n (0 : Fin 1)) = ix3 b n (0 : Fin 2) := eq_ix3 _
  rw [val_main_v3_apply, val_main_call0_v4_apply, val_main_call0_v3_apply, val_main_c_0_apply, val_main_call0_v2_apply,
    val_main_call0_v1_apply, val_main_call0_v0_apply, val_main_c_apply, val_main_v2_apply, idx_flat_v2,
    val_main_v1_apply, e1, val_main_v0_apply, idx_regroup]
  rfl

/-- The end column, clipped. -/
theorem end_clipped (x1 : (⟨S8x512x16x2, .i32⟩ : BufTy).Contents (Elt F)) (b : Fin 8) (n : Fin 8192) :
    val_main_v6 (F := F) x1 (ix2 b n)
      = clipW (x1 (ix4 b ⟨n.val / 16, by have := n.isLt; omega⟩ ⟨n.val % 16, Nat.mod_lt _ (by decide)⟩ 1)) := by
  have e1 : idx_main_v4 (ix3 b n (0 : Fin 1)) = ix3 b n (1 : Fin 2) := eq_ix3 _
  rw [val_main_v6_apply, val_main_call1_v4_apply, val_main_call1_v3_apply, val_main_c_2_apply, val_main_call1_v2_apply,
    val_main_call1_v1_apply, val_main_call1_v0_apply, val_main_c_1_apply, val_main_v5_apply, idx_flat_v5,
    val_main_v4_apply, e1, val_main_v0_apply, idx_regroup]
  rfl

/-- The batch column is the batch number. -/
theorem batch_word (b : Fin 8) : val_main_v8 (F := F) (ix2 b (0 : Fin 1)) = BitVec.ofNat 32 b.val := by
  rw [val_main_v8_apply, val_main_v7_apply]

/-- The first gather's index pair at (b, n): the batch number … -/
theorem startPair_zero (x1 : (⟨S8x512x16x2, .i32⟩ : BufTy).Contents (Elt F)) (b : Fin 8) (n : Fin 8192) :
    val_main_v22 (F := F) x1 (ix3 b n 0) = BitVec.ofNat 32 b.val := by
  have e20 : idx_main_v20 (ix3 b n (0 : Fin 1)) = ix2 b n := eq_ix2 _
  have e19 : idx_main_v19 (ix2 b n) = ix2 b (0 : Fin 1) := eq_ix2 _
  rw [val_main_v22, wordPair_apply_zero, val_main_v20_apply, e20, val_main_v19_apply, e19, val_main_v13_apply,
    val_main_v10_apply, val_main_v12_apply, val_main_v9_apply, val_main_v11_apply, val_main_c_3_apply, val_main_c_4_apply,
    batch_word]
  exact batchSelect b

/-- … and the clipped start word. -/
theorem startPair_one (x1 : (⟨S8x512x16x2, .i32⟩ : BufTy).Contents (Elt F)) (b : Fin 8) (n : Fin 8192) :
    val_main_v22 (F := F) x1 (ix3 b n 1)
      = clipW (x1 (ix4 b ⟨n.val / 16, by have := n.isLt; omega⟩ ⟨n.val % 16, Nat.mod_lt _ (by decide)⟩ 0)) := by
  have e21 : idx_main_v21 (ix3 b n (0 : Fin 1)) = ix2 b n := eq_ix2 _
  rw [val_main_v22, wordPair_apply_one, val_main_v21_apply, e21, val_main_v18_apply, val_main_v15_apply, val_main_v17_apply,
    val_main_v14_apply, val_main_v16_apply, val_main_c_5_apply, val_main_c_6_apply, start_clipped]
  exact clipSelect _

/-- The second gather's index pair at (b, n): the batch number … -/
theorem endPair_zero (x1 : (⟨S8x512x16x2, .i32⟩ : BufTy).Contents (Elt F)) (b : Fin 8) (n : Fin 8192) :
    val_main_v37 (F := F) x1 (ix3 b n 0) = BitVec.ofNat 32 b.val := by
  have e35 : idx_main_v35 (ix3 b n (0 : Fin 1)) = ix2 b n := eq_ix2 _
  have e34 : idx_main_v34 (ix2 b n) = ix2 b (0 : Fin 1) := eq_ix2 _
  rw [val_main_v37, wordPair_apply_zero, val_main_v35_apply, e35, val_main_v34_apply, e34, val_main_v28_apply,
    val_main_v25_apply, val_main_v27_apply, val_main_v24_apply, val_main_v26_apply, val_main_c_7_apply, val_main_c_8_apply,
    batch_word]
  exact batchSelect b

/-- … and the clipped end word. -/
theorem endPair_one (x1 : (⟨S8x512x16x2, .i32⟩ : BufTy).Contents (Elt F)) (b : Fin 8) (n : Fin 8192) :
    val_main_v37 (F := F) x1 (ix3 b n 1)
      = clipW (x1 (ix4 b ⟨n.val / 16, by have := n.isLt; omega⟩ ⟨n.val % 16, Nat.mod_lt _ (by decide)⟩ 1)) := by
  have e36 : idx_main_v36 (ix3 b n (0 : Fin 1)) = ix2 b n := eq_ix2 _
  rw [val_main_v37, wordPair_apply_one, val_main_v36_apply, e36, val_main_v33_apply, val_main_v30_apply, val_main_v32_apply,
    val_main_v29_apply, val_main_v31_apply, val_main_c_9_apply, val_main_c_10_apply, end_clipped]
  exact clipSelect _

end Words

/-! ## The gathered rows, their concatenation, and the linear layer -/

/-- The first gather at (b, n, c) is the hidden state at (b, the start row of span n, c) … -/
theorem start_rows (x0 : (⟨S8x512x1024, .f32⟩ : BufTy).Contents (Elt Ideal)) (x1 : (⟨S8x512x16x2, .i32⟩ : BufTy).Contents (Elt Ideal))
    (b : Fin 8) (n : Fin 8192) (c : Fin 1024) :
    val_main_v23 (F := Ideal) x0 x1 (ix3 b n c) = x0 (ix3 b (rowOf x1 b n 0) c) := by
  unfold val_main_v23
  exact gather_rows_apply x0 _ b n c (rowOf x1 b n 0) (startPair_zero x1 b n)
    (by rw [startPair_one]; exact clipW_toInt_toNat _)

/-- … and the second at (b, the end row of span n, c). -/
theorem end_rows (x0 : (⟨S8x512x1024, .f32⟩ : BufTy).Contents (Elt Ideal)) (x1 : (⟨S8x512x16x2, .i32⟩ : BufTy).Contents (Elt Ideal))
    (b : Fin 8) (n : Fin 8192) (c : Fin 1024) :
    val_main_v38 (F := Ideal) x0 x1 (ix3 b n c) = x0 (ix3 b (rowOf x1 b n 1) c) := by
  unfold val_main_v38
  exact gather_rows_apply x0 _ b n c (rowOf x1 b n 1) (endPair_zero x1 b n)
    (by rw [endPair_one]; exact clipW_toInt_toNat _)

/-- A sum over 2048 = 1024 + 1024 indices is the sum over its first 1024 plus the sum over its last 1024. -/
theorem sum_blocks (f : Fin 2048 → EReal) :
    ∑ k : Fin 2048, f k = ∑ c : Fin 1024, f ⟨c.val, by have := c.isLt; omega⟩ + ∑ c : Fin 1024, f ⟨1024 + c.val, by have := c.isLt; omega⟩ :=
  Fin.sum_univ_add (a := 1024) (b := 1024) (fun k : Fin (1024 + 1024) => f k)

/-- The contraction over the 2048 concatenated entries is the start row against the left half of the weight row plus
    the end row against its right half. -/
theorem dot_halves (x0 : (⟨S8x512x1024, .f32⟩ : BufTy).Contents (Elt Ideal)) (x1 : (⟨S8x512x16x2, .i32⟩ : BufTy).Contents (Elt Ideal))
    (x2 : (⟨S1024x2048, .f32⟩ : BufTy).Contents (Elt Ideal)) (b : Fin 8) (n : Fin 8192) (d : Fin 1024) :
    val_main_v40 (F := Ideal) x0 x1 x2 (ix3 b n d)
      = half x0 x2 b (rowOf x1 b n 0) d 0 (by decide) + half x0 x2 b (rowOf x1 b n 1) d 1024 (by decide) := by
  rw [val_main_v40_apply, sum_blocks]
  unfold half
  congr 1
  · refine Finset.sum_congr rfl fun c _ => ?_
    have el : lidx_main_v40 (ix3 b n d) (⟨c.val, by have := c.isLt; omega⟩ : Fin 2048)
        = ix3 b n (⟨c.val, by have := c.isLt; omega⟩ : Fin 2048) := eq_ix3 _
    have er : ridx_main_v40 (ix3 b n d) (⟨c.val, by have := c.isLt; omega⟩ : Fin 2048)
        = ix2 d (⟨0 + c.val, by have := c.isLt; omega⟩ : Fin 2048) := by
      funext a; refine Fin.ext ?_
      match a with
      | ⟨0, _⟩ => rfl
      | ⟨1, _⟩ => show c.val = 0 + c.val; omega
    rw [el, er, val_main_v39, rowPair_apply_left, start_rows]
  · refine Finset.sum_congr rfl fun c _ => ?_
    have el : lidx_main_v40 (ix3 b n d) (⟨1024 + c.val, by have := c.isLt; omega⟩ : Fin 2048)
        = ix3 b n (⟨1024 + c.val, by have := c.isLt; omega⟩ : Fin 2048) := eq_ix3 _
    have er : ridx_main_v40 (ix3 b n d) (⟨1024 + c.val, by have := c.isLt; omega⟩ : Fin 2048)
        = ix2 d (⟨1024 + c.val, by have := c.isLt; omega⟩ : Fin 2048) := eq_ix2 _
    rw [el, er, val_main_v39, rowPair_apply_right, end_rows]

/-- The bias, broadcast over batches and spans. -/
theorem bias_apply (x3 : (⟨S1024, .f32⟩ : BufTy).Contents (Elt Ideal)) (b : Fin 8) (n : Fin 8192) (d : Fin 1024) :
    val_main_v42 (F := Ideal) x3 (ix3 b n d) = x3 (ix1 d) := by
  rw [val_main_v42_apply, val_main_v41_apply]
  exact congrArg x3 (eq_ix1 _)

/-- THE REFERENCE, before its final regrouping, is the layer. -/
theorem ref_value
    (x0 : (⟨Cert.ReferenceIdeal.S8x512x1024, .f32⟩ : BufTy).Contents (Elt Ideal)) (x1 : (⟨Cert.ReferenceIdeal.S8x512x16x2, .i32⟩ : BufTy).Contents (Elt Ideal))
    (x2 : (⟨Cert.ReferenceIdeal.S1024x2048, .f32⟩ : BufTy).Contents (Elt Ideal)) (x3 : (⟨Cert.ReferenceIdeal.S1024, .f32⟩ : BufTy).Contents (Elt Ideal)) :
    Cert.ReferenceIdeal.ReadCopy.val_main_v44 (F := Ideal) x0 x1 x2 x3 = Cert.SpanSpec.G x0 x1 x2 x3 := by
  funext j
  obtain ⟨b, n, d, rfl⟩ : ∃ b n d, j = ix3 b n d := ⟨j 0, j 1, j 2, eq_ix3 j⟩
  rw [val_main_v44_apply, val_main_v43_apply, dot_halves, bias_apply, val_main_call2_v0_apply, val_main_call2_cst_apply]
  rfl

end Cert.SpanRef

end
-- ==== Proof.lean ====
/-
  The proof of `Cert.Claim`: the span-endpoint layer as a Pallas kernel against its jnp reference, over the extended reals.

  Both programs compute, for batch b, span n and feature d,

      max ( sum_c h[b, start, c] * W[d, c] + sum_c h[b, end, c] * W[d, 1024 + c] + bias[d] , 0 ),

  start and end being the span's two index words clipped into 0 .. 511 (Proof/Spec.lean: `Cert.SpanSpec.G`), regrouped
  to [8, 512, 16, 1024]. The reference gathers the two rows, lays them side by side and multiplies by the weight: its
  sum over 2048 positions splits into the two sums over 1024 (Proof/RefValue.lean). The kernel moves the linear layer
  through the gather: per batch it multiplies the whole hidden-state matrix by the two halves of the weight once, keeps
  the two products as a 1024-row table, and picks rows `start` and `512 + end` with a row vector holding two ones; over
  the extended reals a zero entry contributes zero whatever it multiplies, so the pick is exact and no finiteness is
  used (Proof/KPayload.lean, Proof/KValue.lean). The three frames are the generated frame runs (the reference's its
  run with the result dropped); the ideal pass rewrote nothing, so `preserves` is trivial.
-/
import proofs.«415181_j5995774345595_3_alg».proof.Defs
import proofs.«415181_j5995774345595_3_alg».proof.Proof.Gen.Kernel
import proofs.«415181_j5995774345595_3_alg».proof.Proof.Gen.Kernel.Skeleton
import proofs.«415181_j5995774345595_3_alg».proof.Proof.Gen.Kernel.Launch
import proofs.«415181_j5995774345595_3_alg».proof.Proof.Gen.Kernel.Points
import proofs.«415181_j5995774345595_3_alg».proof.Proof.Gen.Kernel.Frame
import proofs.«415181_j5995774345595_3_alg».proof.Proof.Gen.KernelIdeal
import proofs.«415181_j5995774345595_3_alg».proof.Proof.Gen.KernelIdeal.Skeleton
import proofs.«415181_j5995774345595_3_alg».proof.Proof.Gen.KernelIdeal.Launch
import proofs.«415181_j5995774345595_3_alg».proof.Proof.Gen.KernelIdeal.Points
import proofs.«415181_j5995774345595_3_alg».proof.Proof.Gen.KernelIdeal.Frame
import proofs.«415181_j5995774345595_3_alg».proof.Proof.Gen.ReferenceIdeal
import proofs.«415181_j5995774345595_3_alg».proof.Proof.Gen.Pre_finite_inputs
import proofs.«415181_j5995774345595_3_alg».proof.Proof.RefRun
import proofs.«415181_j5995774345595_3_alg».proof.Proof.RefRead
import proofs.«415181_j5995774345595_3_alg».proof.Proof.Spec
import proofs.«415181_j5995774345595_3_alg».proof.Proof.KValue
import proofs.«415181_j5995774345595_3_alg».proof.Proof.RefValue
import Idealize.ShloMosaic.Adequacy
import Idealize.ShloMosaic.Init

noncomputable section

namespace Cert.Proof

open Idealize.ShloMosaic Idealize.SL.Sem

/-- The kernel as printed runs, and leaves its arguments as they were: the generated frame run. -/
theorem frame_k : Cert.frame_Kernel := fun m ρ _ => Cert.Kernel.Gen.frame m ρ

/-- The same for the kernel read over the extended reals. -/
theorem frame_ki : Cert.frame_KernelIdeal := fun m ρ _ => Cert.KernelIdeal.Gen.frame m ρ

/-- The reference runs and leaves its arguments as they were: its generated run, the result dropped. -/
theorem frame_ri : Cert.frame_ReferenceIdeal := fun m ρ _ =>
  (θ_run Cert.ReferenceIdeal.defs _ _).mono (fun _ h c => (h c).2) (Cert.ReferenceIdeal.RunCopy.run (F := Ideal) m ρ)

/-- The ideal pass rewrote no operation of the kernel. -/
theorem preserves : Cert.preserves_Kernel_KernelIdeal := trivial

/-- Over the extended reals the kernel's result is the layer of its arguments regrouped to [8, 512, 16, 1024]
    (`Cert.SpanKernel.run`), and so is the reference's, of arguments that agree (`Cert.SpanRef.ref_value`). -/
theorem algebraic : Cert.algebraic_KernelIdeal_ReferenceIdeal := by
  intro m ρ m' ρ' _ hagree
  refine ⟨fun c => shapeCast Cert.KernelIdeal.S8x512x16x1024 (Cert.SpanKernel.layer m c)
    Cert.KernelIdeal.Facts₀.shapeCasts_S8x8192x1024_S8x512x16x1024, Cert.SpanKernel.run m ρ, ?_⟩
  refine (θ_run Cert.ReferenceIdeal.defs _ _).mono (fun _ h c => ⟨(h c).1.trans ?_, (h c).2⟩)
    (Cert.ReferenceIdeal.RunCopy.run (F := Ideal) m' ρ')
  rw [Cert.ReferenceIdeal.ReadCopy.val_main_v45_eq]
  unfold Cert.ReferenceIdeal.ReadCopy.val_main_v45
  rw [Cert.SpanRef.ref_value, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
